-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S100000x512 : Shape := ⟨2, ![100000, 512]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x512 .f32) (main_arg1 : FVec F S100000x512 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 100000#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S256x512 : Shape := ⟨2, ![256, 512]⟩
abbrev S100000x512 : Shape := ⟨2, ![100000, 512]⟩
abbrev S256 : Shape := ⟨1, ![256]⟩
abbrev S256x1x512 : Shape := ⟨3, ![256, 1, 512]⟩
abbrev S100000x1x512 : Shape := ⟨3, ![100000, 1, 512]⟩
abbrev S1x1 : Shape := ⟨2, ![1, 1]⟩
abbrev S1x1x512 : Shape := ⟨3, ![1, 1, 512]⟩
abbrev S1 : Shape := ⟨1, ![1]⟩
abbrev S1x1x1 : Shape := ⟨3, ![1, 1, 1]⟩
abbrev S256x1 : Shape := ⟨2, ![256, 1]⟩

abbrev nBuf : Space → Nat
  | .hbm => 6
  | .vmem => 9
  | .smem => 1
  | _ => 0

abbrev bufTy : (tb : Table) → Fin (tcTables nBuf tb) → BufTy
  | .hbm, ⟨0, _⟩ => ⟨S256x512, .f32⟩
  | .hbm, ⟨1, _⟩ => ⟨S100000x512, .f32⟩
  | .hbm, ⟨2, _⟩ => ⟨S256x1x512, .f32⟩
  | .hbm, ⟨3, _⟩ => ⟨S100000x1x512, .f32⟩
  | .hbm, ⟨4, _⟩ => ⟨S1x1, .f32⟩
  | .hbm, ⟨5, _⟩ => ⟨S256x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1, .f32⟩
  | .local _ .vmem, ⟨5, _⟩ => ⟨S1x1x1, .f32⟩
  | .local _ .vmem, ⟨6, _⟩ => ⟨S256x512, .f32⟩
  | .local _ .vmem, ⟨7, _⟩ => ⟨S1x1, .f32⟩
  | .local _ .vmem, ⟨8, _⟩ => ⟨S256x512, .f32⟩
  | .local _ .smem, ⟨0, _⟩ => ⟨S256, .i32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c255_i32 : BitVec 32 := 255#32
  let v25 : BitVec 1 := Scalar.cmpi .eq arg0 c255_i32
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S256x512_S256x1x512_0_2 : S256x512.BroadcastsInDim S256x1x512 (![0, 2] : Fin 2 → Fin S256x1x512.rank)
  bcast_S100000x512_S100000x1x512_0_2 : S100000x512.BroadcastsInDim S100000x1x512 (![0, 2] : Fin 2 → Fin S100000x1x512.rank)
  numel1_S1 : S1.numel = 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  reduces_S1x1x512_S1x1 : S1x1x512.Reduces [2] S1x1
  shapeCasts_S1x1_S1x1x1 : S1x1.ShapeCasts S1x1x1
  shapeCasts_S1x1x1_S1x1 : S1x1x1.ShapeCasts S1x1
  inb_S1x1_S1x1_0_0 : ∀ a, (![0, 0] : Fin 2 → Nat) a + S1x1.size a ≤ S1x1.size a
  h_S1x1 : 0 < S1x1.numel
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  shapeCasts_S1x1_S1x1 : S1x1.ShapeCasts S1x1
  broadcasts_S1x1_S256x512 : S1x1.Broadcasts S256x512
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S256x1x512.size a
  hwx0_0 : ∀ i : grid0.Coords, EltTy.bits .f32 = 32 ∨ (Rect.block (s := S256x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)

variable [Facts₀]

abbrev spec0_0 : Pipeline.WinSpec sig grid0.rank :=
  Pipeline.WinSpec.ofSpec (Memref.whole main_v0) S1x1x512.size reads0_0 false false 2 stage0_0 sem0_0 nbuf0_0 hstage0_0

abbrev spec0_1 : Pipeline.WinSpec sig grid0.rank :=
  Pipeline.WinSpec.ofSpec (Memref.whole main_v1) S1x1x512.size reads0_1 false false 2 stage0_1 sem0_1 nbuf0_1 hstage0_1

abbrev spec0_2 : Pipeline.WinSpec sig grid0.rank :=
  Pipeline.WinSpec.ofSpec (Memref.whole main_v2) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1x512.size a ≤ S100000x1x512.size a), EltTy.bits .f32 = 32 ∨ (Rect.block (s := S100000x1x512) S1x1x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S256x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  harr0 : ∀ w, (spec0 w).arr.IsWhole

variable [Facts]
-- ==== ReferenceIdeal.lean ====
abbrev S256x512 : Shape := ⟨2, ![256, 512]⟩
abbrev S100000x512 : Shape := ⟨2, ![100000, 512]⟩
abbrev S256 : Shape := ⟨1, ![256]⟩
abbrev S_ : Shape := ⟨0, ![]⟩
abbrev S256x1 : Shape := ⟨2, ![256, 1]⟩

abbrev nBuf : Space → Nat
  | .hbm => 45
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S100000x512, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256, .f32⟩
  | .hbm, ⟨15, _⟩ => ⟨S256x512, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x512, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256x1, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S256x1, .f32⟩
  | .hbm, ⟨41, _⟩ => ⟨S256x512, .f32⟩
  | .hbm, ⟨42, _⟩ => ⟨S256x512, .f32⟩
  | .hbm, ⟨43, _⟩ => ⟨S256x512, .f32⟩
  | .hbm, ⟨44, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x512_S256_d1 : S256x512.ReducesTo [1] S256
  h_S_ : 0 < S_.numel
  reducesTo_S256_S_d0 : S256.ReducesTo [0] S_
  bcast_S256x1_S256x512_0_1 : S256x1.BroadcastsInDim S256x512 (![0, 1] : Fin 2 → Fin S256x512.rank)
  bcast_S_S256x512 : S_.BroadcastsInDim S256x512 (![] : Fin 0 → Fin S256x512.rank)
  gather_S100000x512_S256x1_S256x512_1_0_n_n_0_1_1512_wf : GatherDims.WF S100000x512 S256x1 S256x512 [1] [0] [] [0] [] 1 ![1, 512]

variable [Facts₀]

def gather_S100000x512_S256x1_S256x512_1_0_n_n_0_1_1512 : GatherDims S100000x512 S256x1 S256x512 where
  offsetDims := [1]
  collapsedSliceDims := [0]
  operandBatchingDims := []
  startIndicesBatchingDims := []
  startIndexMap := [0]
  indexVectorDim := 1
  sliceSizes := ![1, 512]
  wf := gather_S100000x512_S256x1_S256x512_1_0_n_n_0_1_1512_wf

class Facts : Prop extends Facts₀ where

variable [Facts]
-- ==== Proof.K.Region0.lean ====
/- The first pallas_call's region: a one-cell accumulator carried across the 256 grid points.

   At point `b` the body sees row `b` of the features and the row of the centres that label `b` selects,
   and adds `(Σ f² + Σ c²) − 2·Σ f·c` to the accumulator; the accumulator is set to zero first at point 0, and
   copied to the 1×1 output after the update at point 255. Three control cases therefore: the first point
   (reset, then update), the middle points (update), the last point (update, then copy out). The label table
   is read by the second window's index map only, never by the body, so whatever holds the table rides
   through the region untouched. -/
import proofs.«425759_j86672440033822_2_alg».proof.Proof.Gen.Kernel.Launch
import proofs.«425759_j86672440033822_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The one-cell accumulator the body carries from point to point: a whole scoped buffer of the call's own. -/
abbrev scM0 : Memref sig .tc .vmem S1x1x1 .f32 := Memref.whole cc0_scratch0

namespace Region0

/-! ## The two conditions of the body, in closed form over the grid -/

/-- The body's first conditional: the point is the first. -/
abbrev condA (i : grid0.Coords) : Prop :=
  (Scalar.cmpi .ne (Scalar.extui (Scalar.cmpi .eq (BitVec.ofNat 32 (i 0).val) 0#32)) 0#32) = 1#1
theorem hcondA : ∀ t : Fin grid0.N, condA (grid0.coords t) ↔ t.val = 0 := by decide +kernel

/-- The body's second conditional: the point is the last. -/
abbrev condC (i : grid0.Coords) : Prop := k0_cond2 i = 1#1
theorem hcondC : ∀ t : Fin grid0.N, condC (grid0.coords t) ↔ t.val = 255 := by decide +kernel

/-! ## The output window's schedule: idle and not written back before the last point, live and written back there -/

theorem flushOut : ∀ t : Fin grid0.N, Pipeline.Window.flushOf grid0 true cc0_transform_2 t = decide (t.val = 255) := by
  decide +kernel

section Region

variable (a0 : (pcfg0 (F := F)).Adm)

theorem flush2 (t : Fin (cfg0 a0).N) : ((cfg0 a0).win 2).flush t = decide (t.val = 255) := flushOut t

theorem idle2_of_not (t : Fin (cfg0 a0).N) (h : ¬ condC (grid0.coords t)) : (cfg0 a0).idle 2 (grid0.coords t) = true := by
  show (!(k0_cond2 (grid0.coords t) == 1#1)) = true
  simp only [Bool.not_eq_true', beq_eq_false_iff_ne, ne_eq]; exact h

theorem idle2_of (t : Fin (cfg0 a0).N) (h : condC (grid0.coords t)) : (cfg0 a0).idle 2 (grid0.coords t) = false := by
  show (!(k0_cond2 (grid0.coords t) == 1#1)) = false
  simp only [Bool.not_eq_false', beq_iff_eq]; exact h

/-- Each window's current staging memref at point `t`; the label table as the body is handed it. -/
abbrev st0 (t : Fin (cfg0 a0).N) : Memref sig .tc .vmem S1x1x512 .f32 := spec0_0.stage ((cfg0 a0).slots t 0)
abbrev hst0 (t : Fin (cfg0 a0).N) : (st0 a0 t).IsWhole := hstage0_0 (((cfg0 a0).slots t 0).cast nbuf0_0)
abbrev st1 (t : Fin (cfg0 a0).N) : Memref sig .tc .vmem S1x1x512 .f32 := spec0_1.stage ((cfg0 a0).slots t 1)
abbrev hst1 (t : Fin (cfg0 a0).N) : (st1 a0 t).IsWhole := hstage0_1 (((cfg0 a0).slots t 1).cast nbuf0_1)
abbrev st2 (t : Fin (cfg0 a0).N) : Memref sig .tc .vmem S1x1 .f32 := spec0_2.stage ((cfg0 a0).slots t 2)
abbrev hst2 (t : Fin (cfg0 a0).N) : (st2 a0 t).IsWhole := hstage0_2 (((cfg0 a0).slots t 2).cast nbuf0_2)
abbrev tbM0 : Memref sig .tc .smem S256 .i32 := Memref.whole main_arg2

/-- The body as the pipeline calls it at point `t`. -/
abbrev bodyAt0 (t : Fin (cfg0 a0).N) : Prog (TpuEff nD τ sig (Elt F) Λ₀ .tc) PUnit :=
  cc0__gather_sum_kernel (grid0.coords t) tbM0 (Memref.isWhole_whole _) (st0 a0 t) (hst0 a0 t) (st1 a0 t) (hst1 a0 t)
    (st2 a0 t) (hst2 a0 t) scM0 (Memref.isWhole_whole _)

end Region

/-! ## The body's triple, case by case

Every store writes its whole one-cell (or one-row) buffer through the unit rectangle at zero offsets, and every load
reads a whole buffer through it: a buffer read back after a store holds that store's value, whatever it held before. -/

theorem hz3 : (![0, 0, 0] : Fin 3 → ℕ) = fun _ => 0 := funext fun a => by fin_cases a <;> rfl
theorem hz2 : (![0, 0] : Fin 2 → ℕ) = fun _ => 0 := funext fun a => by fin_cases a <;> rfl

set_option maxHeartbeats 1000000 in
/-- The first point: the accumulator, at anything, is set to zero and then updated; the output buffer is handed back
    as it was found. -/
theorem runA (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : condA i) (hC : ¬ condC i)
    (x0 x1 : Vec F S1x1x512 .f32) (xo : Vec F S1x1 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 (k0_pay1 (F := F)))) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%fo, %hfo, HO⟩, ⟨%ds, %fs, -, HS⟩, Hk⟩
  subst hf0; subst hf1; subst hfo
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.readCov_unit_zero (S := S1x1x1) _ hz3]

set_option maxHeartbeats 1000000 in
/-- A middle point: the accumulator, at what the point before left, is updated; the output buffer is handed back as
    it was found. -/
theorem runB (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : ¬ condA i) (hC : ¬ condC i)
    (x0 x1 : Vec F S1x1x512 .f32) (xo : Vec F S1x1 .f32) (xs : Vec F S1x1x1 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 xs)) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.ld_unit_zero (S := S1x1x1) hz3]

set_option maxHeartbeats 1000000 in
/-- The last point: the accumulator, at what the point before left, is updated and then copied to the output buffer,
    which may hold anything before. -/
theorem runC (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : ¬ condA i) (hC : condC i)
    (x0 x1 : Vec F S1x1x512 .f32) (xs : Vec F S1x1x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%d_o, %fo, -, HO⟩, ⟨%fs, %hfs, HS⟩, Hk⟩
  subst hf0; subst hf1; subst hfs
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.read_writes_eq_canon _ _ _ (fun y => ⟨_, List.mem_cons_self, View.mem_set_unit_zero hz2 inb_S1x1_S1x1_0_0 y⟩),
      View.canon_cons_unit_zero hz2]
    simp only [View.readAt_eq_ld, View.ld_unit_zero (S := S1x1x512) hz3, View.ld_unit_zero (S := S1x1x1) hz3,
      View.readCov_unit_zero (S := S1x1x1) _ hz3]
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.ld_unit_zero (S := S1x1x1) hz3]

end Region0

open Region0

/-! ## The region's data -/

section Data

variable (a0 : (pcfg0 (F := F)).Adm)
variable (V : (c : Dev nD) → (b : Ref sig .tc) → Buf (Elt F) ((c : Thread nD τ).loc b))
-- a resource the region never touches: whatever holds the label table while the region runs
variable (Rd : Dev nD → sProp (MT nD τ sig Unit (Elt F) ℕ (UR sig nD τ) ℕ))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

namespace Region0

/-- An input window that is never cut and never idle, and whose block the body leaves in place, holds its block at
    every point, fetched there or not: an unfetched point has the block index of the point before. For the features'
    rows, -/
theorem before_of_0 {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- and for the centres' rows, whichever row the label selects. -/
theorem before_of_1 {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- What the accumulator holds after point `n`: zero updated by the first point's rows, then by each later point's. -/
def accAt (c : Dev nD) : (n : ℕ) → n < (cfg0 a0).N → Vec F S1x1x1 .f32
  | 0, h => k0_pay2 (iblk0 a0 V c 0 ⟨0, h⟩) (iblk0 a0 V c 1 ⟨0, h⟩) (k0_pay1 (F := F))
  | n + 1, h => k0_pay2 (iblk0 a0 V c 0 ⟨n + 1, h⟩) (iblk0 a0 V c 1 ⟨n + 1, h⟩) (accAt c n (Nat.lt_of_succ_lt h))

theorem accAt_zero (c : Dev nD) (h : 0 < (cfg0 a0).N) :
    accAt a0 V c 0 h = k0_pay2 (iblk0 a0 V c 0 ⟨0, h⟩) (iblk0 a0 V c 1 ⟨0, h⟩) (k0_pay1 (F := F)) := rfl

theorem accAt_succ (c : Dev nD) (n : ℕ) (h : n + 1 < (cfg0 a0).N) :
    accAt a0 V c (n + 1) h = k0_pay2 (iblk0 a0 V c 0 ⟨n + 1, h⟩) (iblk0 a0 V c 1 ⟨n + 1, h⟩) (accAt a0 V c n (Nat.lt_of_succ_lt h)) := rfl

namespace Region0

/-- At the first point, -/
theorem accAt_first (c : Dev nD) (t : Fin (cfg0 a0).N) (h : t.val = 0) :
    accAt a0 V c t.val t.isLt = k0_pay2 (iblk0 a0 V c 0 t) (iblk0 a0 V c 1 t) (k0_pay1 (F := F)) := by
  obtain ⟨n, hn⟩ := t
  cases n with
  | zero => rfl
  | succ n => exact absurd h (Nat.succ_ne_zero n)

/-- and at a later one, over what the point before left. -/
theorem accAt_later (c : Dev nD) (t : Fin (cfg0 a0).N) (h : t.val ≠ 0) :
    accAt a0 V c t.val t.isLt = k0_pay2 (iblk0 a0 V c 0 t) (iblk0 a0 V c 1 t)
      (accAt a0 V c (t.val - 1) (Nat.lt_of_le_of_lt (Nat.sub_le _ _) t.isLt)) := by
  obtain ⟨n, hn⟩ := t
  cases n with
  | zero => exact absurd rfl h
  | succ n => rfl

/-- The core's scoped buffers this call neither stages nor stores into: the second call's three staging buffers, each
    at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- What the launch hands the region, with the accumulator named as a memref owned at some contents. -/
theorem PhiA0_eq (c : Dev nD) :
    (Pipeline.ΦA spec0 c : sProp 𝕄)
      = iprop(((∃ d, owns (c : Thread nD τ) scM0 fullShare d) ∗ restS (F := F) c) ∗ (∃ r, prngReg c r)) := by
  unfold Pipeline.ΦA restS; rw [scopedRest0_eq]; simp only [scM0, owns_whole]; try rfl

/-- The invariant before position `n`, the table's holder apart: before the first point what the launch hands over;
    afterwards the accumulator at what the point before left, the other scoped buffers at anything, the generator
    register at some state. -/
def PhiS (c : Dev nD) : (n : ℕ) → n ≤ (cfg0 a0).N → sProp 𝕄
  | 0, _ => Pipeline.ΦA spec0 c
  | n + 1, hn => iprop((owns (c : Thread nD τ) scM0 fullShare (accAt a0 V c n hn) ∗ restS (F := F) c) ∗ (∃ r, prngReg c r))

theorem PhiS_zero (c : Dev nD) (n : ℕ) (h : n ≤ (cfg0 a0).N) (hz : n = 0) : PhiS a0 V c n h = Pipeline.ΦA spec0 c := by
  subst hz; rfl

theorem PhiS_succ (c : Dev nD) (n : ℕ) (hn : n < (cfg0 a0).N) :
    PhiS a0 V c (n + 1) hn
      = iprop((owns (c : Thread nD τ) scM0 fullShare (accAt a0 V c n hn) ∗ restS (F := F) c) ∗ (∃ r, prngReg c r)) := rfl

theorem PhiS_pos (c : Dev nD) (n : ℕ) (h : n ≤ (cfg0 a0).N) (hz : n ≠ 0) :
    PhiS a0 V c n h
      = iprop((owns (c : Thread nD τ) scM0 fullShare (accAt a0 V c (n - 1) (by omega)) ∗ restS (F := F) c) ∗ (∃ r, prngReg c r)) := by
  cases n with
  | zero => exact absurd rfl hz
  | succ n => rfl

end Region0

/-- The region's data on core `c`: the arrays as the region finds them; after the body each input's buffer at its
    block, the output's at the accumulator copied out (read only at the last point); the invariant `PhiS` beside the
    table's holder; full shares; nothing owed. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => k0_pay3 (accAt a0 V c t.val t.isLt)
  Φ t := iprop(PhiS a0 V c t.val (Nat.le_of_lt_succ t.isLt) ∗ Rd c)
  q _ := fullShare
  owed _ := 0

theorem A_eq0 (c : Dev nD) (w : Fin (cfg0 a0).W) : (dat0 a0 V Rd c).A w = V c (Pipeline.arrRef spec0 w) := by
  dsimp only [dat0]

namespace Region0

theorem Phi_castSucc (c : Dev nD) (t : Fin (cfg0 a0).N) :
    (dat0 a0 V Rd c).Φ t.castSucc = iprop(PhiS a0 V c t.val (Nat.le_of_lt t.isLt) ∗ Rd c) := by
  dsimp only [dat0]; simp only [Fin.coe_castSucc]

theorem after0_0 (c : Dev nD) (t : Fin (cfg0 a0).N) : (dat0 a0 V Rd c).after 0 t = iblk0 a0 V c 0 t := by dsimp only [dat0]; try rfl
theorem after0_1 (c : Dev nD) (t : Fin (cfg0 a0).N) : (dat0 a0 V Rd c).after 1 t = iblk0 a0 V c 1 t := by dsimp only [dat0]; try rfl
theorem after0_2 (c : Dev nD) (t : Fin (cfg0 a0).N) :
    (dat0 a0 V Rd c).after 2 t = k0_pay3 (accAt a0 V c t.val t.isLt) := by dsimp only [dat0]; try rfl

theorem before0_0 (c : Dev nD) (t : Fin (cfg0 a0).N) (d) : (dat0 a0 V Rd c).before 0 t d = iblk0 a0 V c 0 t :=
  before_of_0 a0 V (dat0 a0 V Rd c) (A_eq0 a0 V Rd c 0) (after0_0 a0 V Rd c) t d
theorem before0_1 (c : Dev nD) (t : Fin (cfg0 a0).N) (d) : (dat0 a0 V Rd c).before 1 t d = iblk0 a0 V c 1 t :=
  before_of_1 a0 V (dat0 a0 V Rd c) (A_eq0 a0 V Rd c 1) (after0_1 a0 V Rd c) t d
/-! ## The body obligation -/

/-- A window live at a point hands its buffer back at what the body leaves there. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t`, window by window, -/
def bodyPre (c : Dev nD) (t : Fin (cfg0 a0).N) : sProp 𝕄 :=
  iprop((dat0 a0 V Rd c).Φ t.castSucc ∗ (dat0 a0 V Rd c).owesAt () t.castSucc
    ∗ (∃ d, owns (c : Thread nD τ) (st0 a0 t) fullShare ((dat0 a0 V Rd c).before 0 t d))
    ∗ (∃ d, owns (c : Thread nD τ) (st1 a0 t) fullShare ((dat0 a0 V Rd c).before 1 t d))
    ∗ (∃ d, owns (c : Thread nD τ) (st2 a0 t) fullShare ((dat0 a0 V Rd c).before 2 t d)))

/-- and what it returns. -/
def bodyPost (c : Dev nD) (t : Fin (cfg0 a0).N) : sProp 𝕄 :=
  iprop((dat0 a0 V Rd c).Φ t.succ ∗ (dat0 a0 V Rd c).owesAt () t.succ
    ∗ (dat0 a0 V Rd c).leavesExact 0 t
    ∗ (dat0 a0 V Rd c).leavesExact 1 t
    ∗ (dat0 a0 V Rd c).leavesExact 2 t)

set_option maxHeartbeats 4000000 in
/-- The body at any point. The two input buffers hold their rows; the point's position selects the case. At the
    first point the accumulator may hold anything and ends at zero updated by the point's rows; at a later point it holds
    what the point before left and ends at that updated; before the last point the output buffer is idle and is handed
    back as found, at the last it ends at the accumulator copied out. The table's holder and what the core owes pass
    through unread. -/
theorem sound_body (c : Dev nD) (t : Fin (cfg0 a0).N) :
    bodyPre a0 V Rd c t ⊢ wp frame (wpE (defs₀ (F := F)) Variants.none c none) Set.univ (bodyAt0 a0 t) (fun _ => bodyPost a0 V Rd c t) := by
  unfold bodyPre bodyPost bodyAt0
  simp only [before0_0, before0_1]
  rw [show (dat0 a0 V Rd c).owesAt () t.succ = (dat0 a0 V Rd c).owesAt () t.castSucc from rfl]
  rw [show (dat0 a0 V Rd c).Φ t.succ = iprop(PhiS a0 V c (t.val + 1) t.isLt ∗ Rd c) from rfl, PhiS_succ]
  rw [leavesExact_live (dat0 a0 V Rd c) 0 t rfl, leavesExact_live (dat0 a0 V Rd c) 1 t rfl, after0_0, after0_1, Phi_castSucc]
  have hN : t.val < 256 := lt_of_lt_of_eq t.isLt (show (cfg0 a0).N = 256 from N_0)
  by_cases h0 : t.val = 0
  · have hA : condA (grid0.coords t) := (hcondA t).mpr h0
    have hC : ¬ condC (grid0.coords t) := fun h => by have := (hcondC t).mp h; omega
    rw [Dat.leavesExact_idle (dat0 a0 V Rd c) 2 t (idle2_of_not a0 t hC)
      (by rw [flush2]; exact decide_eq_false (by omega))]
    rw [PhiS_zero a0 V c _ _ h0, PhiA0_eq, accAt_first a0 V c t h0]
    iintro ⟨⟨⟨⟨HS, HR⟩, Hg⟩, HT⟩, Ho, ⟨%d0, H0⟩, ⟨%d1, H1⟩, ⟨%d2, H2⟩⟩
    iapply (runA c Set.univ (grid0.coords t) _ _ _ _ _ _ _ _ _ _ hA hC (iblk0 a0 V c 0 t) (iblk0 a0 V c 1 t)
      ((dat0 a0 V Rd c).before 2 t d2) _)
    isplitl [H0]; · iexact H0
    isplitl [H1]; · iexact H1
    isplitl [H2]; · iexact H2
    isplitl [HS]; · iexact HS
    iintro ⟨H0, H1, H2, HS⟩
    isplitl [HS HR Hg HT]
    · isplitl [HS HR Hg]
      · isplitl [HS HR]
        · isplitl [HS]; · iexact HS
          iexact HR
        iexact Hg
      iexact HT
    isplitl [Ho]; · iexact Ho
    isplitl [H0]; · iexact H0
    isplitl [H1]; · iexact H1
    iexists _; iexact H2
  · have hA : ¬ condA (grid0.coords t) := fun h => h0 ((hcondA t).mp h)
    rw [PhiS_pos a0 V c _ _ h0, accAt_later a0 V c t h0]
    by_cases h1 : t.val = 255
    · have hC : condC (grid0.coords t) := (hcondC t).mpr h1
      rw [leavesExact_live (dat0 a0 V Rd c) 2 t (idle2_of a0 t hC), after0_2, accAt_later a0 V c t h0]
      iintro ⟨⟨⟨⟨HS, HR⟩, Hg⟩, HT⟩, Ho, ⟨%d0, H0⟩, ⟨%d1, H1⟩, ⟨%d2, H2⟩⟩
      iapply (runC c Set.univ (grid0.coords t) _ _ _ _ _ _ _ _ _ _ hA hC (iblk0 a0 V c 0 t) (iblk0 a0 V c 1 t) _ _)
      isplitl [H0]; · iexact H0
      isplitl [H1]; · iexact H1
      isplitl [H2]; · iexists _; iexact H2
      isplitl [HS]; · iexact HS
      iintro ⟨H0, H1, H2, HS⟩
      isplitl [HS HR Hg HT]
      · isplitl [HS HR Hg]
        · isplitl [HS HR]
          · isplitl [HS]; · iexact HS
            iexact HR
          iexact Hg
        iexact HT
      isplitl [Ho]; · iexact Ho
      isplitl [H0]; · iexact H0
      isplitl [H1]; · iexact H1
      iexact H2
    · have hC : ¬ condC (grid0.coords t) := fun h => h1 ((hcondC t).mp h)
      rw [Dat.leavesExact_idle (dat0 a0 V Rd c) 2 t (idle2_of_not a0 t hC)
        (by rw [flush2]; exact decide_eq_false h1)]
      iintro ⟨⟨⟨⟨HS, HR⟩, Hg⟩, HT⟩, Ho, ⟨%d0, H0⟩, ⟨%d1, H1⟩, ⟨%d2, H2⟩⟩
      iapply (runB c Set.univ (grid0.coords t) _ _ _ _ _ _ _ _ _ _ hA hC (iblk0 a0 V c 0 t) (iblk0 a0 V c 1 t)
        ((dat0 a0 V Rd c).before 2 t d2) _ _)
      isplitl [H0]; · iexact H0
      isplitl [H1]; · iexact H1
      isplitl [H2]; · iexact H2
      isplitl [HS]; · iexact HS
      iintro ⟨H0, H1, H2, HS⟩
      isplitl [HS HR Hg HT]
      · isplitl [HS HR Hg]
        · isplitl [HS HR]
          · isplitl [HS]; · iexact HS
            iexact HR
          iexact Hg
        iexact HT
      isplitl [Ho]; · iexact Ho
      isplitl [H0]; · iexact H0
      isplitl [H1]; · iexact H1
      iexists _; iexact H2

end Region0

/-- The library's body obligation, at every point. -/
theorem body_obligation0 (c : Dev nD) : BodyObligation (dat0 (F := F) a0 V Rd c) (defs₀ (F := F)) Variants.none () Set.univ := fun t => by
  rw [bigSep_W0, bigSep_W0]
  exact sound_body a0 V Rd c t

/-! ## Into and out of the region -/

/-- What the launch hands the region, beside the table's holder, is the invariant before the first point. -/
theorem hin0 (c : Dev nD) : iprop(Pipeline.ΦA spec0 c ∗ Rd c) ⊢ (dat0 a0 V Rd c).Φ 0 := by
  rw [show (dat0 a0 V Rd c).Φ 0 = iprop(PhiS a0 V c 0 (Nat.zero_le _) ∗ Rd c) from rfl, PhiS_zero a0 V c 0 _ rfl]

/-- After the last point the invariant gives that back: the accumulator's named contents are forgotten. -/
theorem hout0 (c : Dev nD) : (dat0 a0 V Rd c).Φ (Fin.last (cfg0 a0).N) ⊢ iprop(Pipeline.ΦA spec0 c ∗ Rd c) := by
  rw [show (dat0 a0 V Rd c).Φ (Fin.last (cfg0 a0).N)
      = iprop(PhiS a0 V c (Fin.last (cfg0 a0).N).val (Nat.le_of_lt_succ (Fin.last (cfg0 a0).N).isLt) ∗ Rd c) from rfl,
    PhiS_pos a0 V c _ _ (by rw [Fin.val_last]; have : (cfg0 a0).N = 256 := N_0; omega), PhiA0_eq]
  iintro ⟨⟨⟨HS, HR⟩, Hg⟩, HT⟩
  isplitl [HS HR Hg]
  · isplitl [HS HR]
    · isplitl [HS]; · iexists _; iexact HS
      iexact HR
    iexact Hg
  iexact HT

/-! ## What the region leaves in the output array -/

/-- The output array is written back once, at the last point, and that block is the whole 1×1 array: it ends holding
    the accumulator after the last point, copied out. -/
theorem final0 (c : Dev nD) :
    (dat0 a0 V Rd c).arrAt 2 (cfg0 a0).N
      = k0_pay3 (accAt a0 V c 255 (lt_of_lt_of_eq (by decide : 255 < 256) (show (cfg0 a0).N = 256 from N_0).symm)) := by
  have h255 : 255 < (cfg0 a0).N := lt_of_lt_of_eq (by decide : 255 < 256) (show (cfg0 a0).N = 256 from N_0).symm
  refine (dat0 a0 V Rd c).arrAt_eq_of_cover 2 _ (fun t hf => ?_) (fun i => ⟨⟨255, h255⟩, by rw [flush2]; rfl, ?_⟩)
  · have h1 : t.val = 255 := by rw [flush2] at hf; exact of_decide_eq_true hf
    obtain ⟨n, hn⟩ := t
    dsimp only at h1
    subst h1
    show ((cfg0 a0).win 2).cut _ ((dat0 a0 V Rd c).after 2 ⟨255, hn⟩) = _
    rw [after0_2]
    have hz' : (fun a => ((cfg0 a0).win 2).index ⟨255, hn⟩ a * main_v2.ty.shape.size a) = fun _ => 0 :=
      funext fun a => by fin_cases a <;> rfl
    exact (Memref.read_access_unit_zero (Elt F) main_v2 hz' (fun a => by rw [congrFun hz' a]; simp) _).symm
  · have hx : ∀ (j k : S1x1.Idx), j = k := fun j k => funext fun a => Fin.ext (by
      match a with
      | ⟨0, _⟩ =>
        have hj : (j 0 : Nat) < 1 := (j 0).isLt
        have hk : (k 0 : Nat) < 1 := (k 0).isLt
        show (j 0 : Nat) = (k 0 : Nat); omega
      | ⟨1, _⟩ =>
        have hj : (j 1 : Nat) < 1 := (j 1).isLt
        have hk : (k 1 : Nat) < 1 := (k 1).isLt
        show (j 1 : Nat) = (k 1 : Nat); omega)
    let x : (((cfg0 a0).win 2).xblock ((cfg0 a0).grid.coords ⟨255, h255⟩)).Idx := i
    have hm := (((cfg0 a0).win 2).blk ⟨255, h255⟩).view.emb_mem_set x
    have e : (((cfg0 a0).win 2).blk ⟨255, h255⟩).view.emb x = i := hx _ _
    rw [e] at hm
    exact hm

end Data

end Cert.Kernel.Hand

end
-- ==== Proof.K.Region1.lean ====
/- The second pallas_call, one grid point: what its body leaves in its staging buffers.

   The body reads the whole 256×512 feature array and the 1×1 total, reads (and ignores) the old contents of the
   256×512 result block, and overwrites that block in ONE store with
   log_softmax(features, axis 1) + total — the payload k1_pay1 of the two values read.
   Everything here is stated at an arbitrary entry valuation V of the core's buffers and at any float family. -/
import proofs.«425759_j86672440033822_2_alg».proof.Proof.Gen.Kernel.Launch
import proofs.«425759_j86672440033822_2_alg».proof.Proof.Gen.Kernel.Skeleton
import proofs.«425759_j86672440033822_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at point t, cut out of the window's array as V holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Both offsets of every access of this body are zero. -/
theorem zero2 : (![0, 0] : Fin 2 → Nat) = fun _ => 0 := funext fun a => by fin_cases a <;> rfl

/-- The rectangle of the 256×512 accesses: the whole shape. -/
abbrev rBig : Rect S256x512 := Rect.unit (s := S256x512) ![0, 0] S256x512.size inb_S256x512_S256x512_0_0
/-- The rectangle of the 1×1 access: the whole shape. -/
abbrev rOne : Rect S1x1 := Rect.unit (s := S1x1) ![0, 0] S1x1.size inb_S1x1_S1x1_0_0

/-! ## The result block -/

/-- The result block after the body: the one store laid over whatever was there. -/
def out1_2 (x0 : Vec F S256x512 .f32) (x1 : Vec F S1x1 .f32) : Vec F S256x512 .f32 :=
  View.canon [⟨rBig, k1_pay1 (View.ld x0 rBig) (View.ld x1 rOne)⟩]

/-- A store over the whole shape leaves exactly its value, and a whole-shape load returns the contents. -/
theorem out1_2_eq (x0 : Vec F S256x512 .f32) (x1 : Vec F S1x1 .f32) : out1_2 x0 x1 = k1_pay1 x0 x1 := by
  unfold out1_2
  rw [View.canon_unit_zero zero2, View.ld_unit_zero (S := S256x512) zero2, View.ld_unit_zero (S := S1x1) zero2]

/-- The single store reaches every index of the block. -/
theorem covers1_2 (p : Vec F S256x512 .f32) (y : S256x512.Idx) :
    ∃ pc ∈ ([⟨rBig, p⟩] : List (View.Piece (Elt F) S256x512 .f32)), y ∈ pc.1.set :=
  ⟨_, List.mem_singleton_self _, View.mem_set_unit_zero zero2 inb_S256x512_S256x512_0_0 y⟩

/-! ## The body's triple -/

set_option maxHeartbeats 1000000 in
/-- Run on three whole buffers — the two inputs at known contents, the result block at any contents — the body
    hands them back with the inputs unchanged and the result block at out1_2 of the inputs. -/
theorem sound_kernel1 (c : Dev nD) (E : Set ℕ) (i : grid1.Coords)
    (arg1 : Memref sig .tc .vmem S256x512 .f32) (harg1 : arg1.IsWhole)
    (arg2 : Memref sig .tc .vmem S1x1 .f32) (harg2 : arg2.IsWhole)
    (arg3 : Memref sig .tc .vmem S256x512 .f32) (harg3 : arg3.IsWhole)
    (x0 : Vec F S256x512 .f32) (x1 : Vec F S1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1_2 _)

/-! ## The proof data of the call -/

/-- Arrays as V holds them on entry; after the body the two inputs still hold their blocks and the result block
    holds out1_2 of them; the invariant is the untouched rest of the core; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Both input windows are fetched at the one point, so the body finds each buffer at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body at the grid point -/

/-- The body called on the three staging buffers: the inputs hold their blocks, so the triple above applies;
    the invariant and the debt are carried across unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  have eΦ : (dat1 V c).Φ t.succ = (dat1 V c).Φ t.castSucc := rfl
  have eo : (dat1 V c).owesAt () t.succ = (dat1 V c).owesAt () t.castSucc := rfl
  simp only [before1_0, before1_1]
  rw [eΦ, eo, after1_0, after1_1, after1_2]
  unfold bodyAt1
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

/-! ## From the block to the array

The grid has one point and every index map returns block (0, 0), so a window's block IS its array:
an element at (y₀, y₁) of the block sits at (0·rows + y₀, 0·cols + y₁) of the array. -/

theorem read_blk1_0 (t : Fin cfg1.N) (X : Vec F S256x512 .f32) : ((cfg1.win 0).blk t).view.read (Elt F) X = X := by
  funext y
  show X (((cfg1.win 0).blk t).view.emb y) = X y
  congr 1
  funext a; apply Fin.ext
  match a with
  | ⟨0, _⟩ => show 0 * 256 + 1 * (y 0).val = (y 0).val; omega
  | ⟨1, _⟩ => show 0 * 512 + 1 * (y 1).val = (y 1).val; omega

theorem read_blk1_1 (t : Fin cfg1.N) (X : Vec F S1x1 .f32) : ((cfg1.win 1).blk t).view.read (Elt F) X = X := by
  funext y
  show X (((cfg1.win 1).blk t).view.emb y) = X y
  congr 1
  funext a; apply Fin.ext
  match a with
  | ⟨0, _⟩ => show 0 * 1 + 1 * (y 0).val = (y 0).val; omega
  | ⟨1, _⟩ => show 0 * 1 + 1 * (y 1).val = (y 1).val; omega

theorem read_blk1_2 (t : Fin cfg1.N) (X : Vec F S256x512 .f32) : ((cfg1.win 2).blk t).view.read (Elt F) X = X := by
  funext y
  show X (((cfg1.win 2).blk t).view.emb y) = X y
  congr 1
  funext a; apply Fin.ext
  match a with
  | ⟨0, _⟩ => show 0 * 256 + 1 * (y 0).val = (y 0).val; omega
  | ⟨1, _⟩ => show 0 * 512 + 1 * (y 1).val = (y 1).val; omega

/-- The feature block is the feature array, the total's block is the total. -/
theorem iblk1_0_eq (c : Dev nD) (t : Fin cfg1.N) : iblk1 V c 0 t = V c main_arg0 := by
  unfold iblk1; exact read_blk1_0 t _
theorem iblk1_1_eq (c : Dev nD) (t : Fin cfg1.N) : iblk1 V c 1 t = V c main_v2 := by
  unfold iblk1; exact read_blk1_1 t _

/-- Every index of the result array lies in the block of the one point. -/
theorem mem_blk1_2 (t : Fin cfg1.N) (i : S256x512.Idx) : i ∈ ((cfg1.win 2).blk t).view.set := by
  show i ∈ ((View.whole main_v3).slice (win1_2.rect t)).set
  rw [View.set_slice_whole, Rect.mem_set_unit]
  intro a
  match a with
  | ⟨0, _⟩ => show 0 * 256 ≤ (i 0).val ∧ (i 0).val < 0 * 256 + 256; have h : (i 0).val < 256 := (i 0).isLt; omega
  | ⟨1, _⟩ => show 0 * 512 ≤ (i 1).val ∧ (i 1).val < 0 * 512 + 512; have h : (i 1).val < 512 := (i 1).isLt; omega

/-- After the call the result array holds log_softmax(features) + total, as the payload of the feature array
    and the total found on entry. -/
theorem final1 (c : Dev nD) :
    (dat1 V c).arrAt 2 cfg1.N = (k1_pay1 (V c main_arg0) (V c main_v2) : Vec F S256x512 .f32) := by
  refine (dat1 V c).arrAt_eq_of_cover 2 _ (fun t _ => ?_) (fun i => ⟨t1_0, flush1_2 _, mem_blk1_2 _ i⟩)
  show (cfg1.win 2).cut (grid1.coords t) ((dat1 V c).after 2 t) = _
  rw [after1_2, out1_2_eq, iblk1_0_eq, iblk1_1_eq, read_blk1_2]
  rfl

end Cert.Kernel.Hand

end
-- ==== Proof.K.Records.lean ====
/- The two pallas_calls as segments of the program's run.

   Between two items of the program a core holds every unscoped buffer whole at a known valuation, its generator
   register at some state, and owes nothing. A call's record says how its windows' arrays are split out of those
   buffers when the call is entered and put back, at what the call's write-backs leave, when it ends; what enters
   the call's invariant (the scoped buffers no window stages, the generator register, and for the first call the
   label table, held whole) and what it gives back. The records are stated for ANY proof data of the two calls with
   the listed properties, so that they do not depend on how a body's triple was obtained. -/
import proofs.«425759_j86672440033822_2_alg».proof.Proof.Gen.Kernel.Launch
import proofs.«425759_j86672440033822_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The tables' contents, the proof data family, the thread state -/

/-- Admissible contents for both calls: the first call's table at `a0`, the second has none. -/
abbrev admF (a0 : (pcfg0 (F := F)).Adm) : (p : Fin 2) → (pcfgs (F := F) p).Adm
  | ⟨0, _⟩ => a0
  | ⟨1, _⟩ => cfg1.toPCfg_adm

/-- The two calls' proof data as one family (a literal match, so that the pinned configuration at a numeral reduces
    to the printed one). -/
def pdatsF (a0 : (pcfg0 (F := F)).Adm)
    (d0 : (c : Dev nD) → Dat τ (Elt F) Unit ℕ (UR sig nD τ) ℕ (cfg0 a0) c)
    (d1 : (c : Dev nD) → Dat τ (Elt F) Unit ℕ (UR sig nD τ) ℕ cfg1 c) :
    (p : Fin 2) → (c : Dev nD) → Dat τ (Elt F) Unit ℕ (UR sig nD τ) ℕ (Pipeline.pin (pcfgs (F := F)) (admF a0) p) c
  | ⟨0, _⟩ => d0
  | ⟨1, _⟩ => d1

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rs (c : Dev nD) : sProp 𝕄 := iprop((∃ r, prngReg c r) ∗ ∃ W, owes (c : Thread nD τ) (0 : CellTallies nD τ sig Unit) W)

/-! ## The second call (the row-wise log-softmax plus the scalar) -/

section Second

variable (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (W2 W3 : Dev nD → Valuation τ sig (Elt F))
  (hA1 : ∀ c w, (d1 c).A w = W2 c (Pipeline.arrRef spec1 w))
  (hq1 : ∀ c w, (d1 c).q w = fullShare)
  (ho1 : ∀ c t, (d1 c).owed t = 0)
  (hr1 : ∀ c t, (d1 c).recorded t = Set.univ)
  (hΦ1 : ∀ c t, (d1 c).Φ t = Pipeline.ΦA spec1 c)
  (hb1 : ∀ c, BodyObligation (d1 c) (defs₀ (F := F)) Variants.none () Set.univ)
  (hF1 : ∀ c w, (d1 c).arrAt w cfg1.N = W3 c (Pipeline.arrRef spec1 w))
  (hrest1 : ∀ c (b : Ref sig .tc), b ∉ Finset.univ.image (Pipeline.arrRef spec1) → W3 c b = W2 c b)

set_option backward.isDefEq.respectTransparency.types false in
/-- The second call over the thread state: entered from every unscoped buffer at `W2`, left at `W3`. -/
def reg1 : Pipeline.RegionSeg (pcfgs (F := F)) (admF a0) (pdatsF a0 d0 d1) () defs₀ 𝒱₀ Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ Lz lvz 1 fun c t => ho1 c t
  pre c := iprop(StableHlo.held (c : Thread nD τ) (Pipeline.ucRefs τ sig) (W2 c) ∗ Rs c)
  post c := iprop(StableHlo.held (c : Thread nD τ) (Pipeline.ucRefs τ sig) (W3 c) ∗ Rs c)
  X c := iprop(∃ r, prngReg c r)
  Y c := iprop(∃ r, prngReg c r)
  Z c := Pipeline.unscopedRest (Ix := Unit) (Name := ℕ) (U := UR sig nD τ) (Lvl := ℕ) spec1 c (fun b => W2 c b)
  hentry c := by
    rw [Pipeline.ownSems0_none]
    unfold Pipeline.Dat.owesAt Pipeline.owesWithin
    rw [show (pdatsF a0 d0 d1 1 c).owed 0 = 0 from ho1 c 0]
    have hsplit := Pipeline.arrays_of_unscopedBufs (p := 1) (pcfgs (F := F)) (admF a0) (pdatsF a0 d0 d1) (launch1 (F := F)).win (launch1 (F := F)).arr_whole c
      ((pdatsF a0 d0 d1 1 c).share_full fun w => hq1 c w) (fun b => W2 c b) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hr1 c 0) ▸ Set.mem_univ _)
      iexact HO
    isplitl [Hp]; · iexact Hp
    iexact Hrest
  hin c := by
    rw [show (pdatsF a0 d0 d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (pdatsF a0 d0 d1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    unfold Pipeline.Dat.owesAt Pipeline.owesWithin
    rw [show (pdatsF a0 d0 d1 1 c).owed (Fin.last (Pipeline.pin (pcfgs (F := F)) (admF a0) 1).N) = 0 from ho1 c _]
    have hjoin := Pipeline.unscopedBufs_of_arrays (p := 1) (pcfgs (F := F)) (admF a0) (Ix := Unit) (Name := ℕ) (U := UR sig nD τ) (Lvl := ℕ)
      (launch1 (F := F)).win (launch1 (F := F)).arr_whole c (pdatsF a0 d0 d1) ((pdatsF a0 d0 d1 1 c).share_full fun w => hq1 c w)
      (fun b => W2 c b) (fun b => W3 c b) ((pdatsF a0 d0 d1 1 c).arrAt · cfg1.N) (fun w => hF1 c w) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Second

/-! ## The first call (the 256 squared distances, summed) -/

section First

variable (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (W1 W2 : Dev nD → Valuation τ sig (Elt F))

/-- The label table on core `c`, held whole at the contents the pipeline runs at. -/
abbrev tblHeld (c : Dev nD) : sProp 𝕄 :=
  Pipeline.prefHeld (Ix := Unit) (Name := ℕ) (U := UR sig nD τ) (Lvl := ℕ) pre0 c (fun _ => fullShare) a0.1

variable
  (hT : ∀ c, (fun k => W1 c (pre0.ref k)) = a0.1)
  (hA0 : ∀ c w, (d0 c).A w = W1 c (Pipeline.arrRef spec0 w))
  (hq0 : ∀ c w, (d0 c).q w = fullShare)
  (ho0 : ∀ c t, (d0 c).owed t = 0)
  (hr0 : ∀ c t, (d0 c).recorded t = Set.univ)
  (hb0 : ∀ c, BodyObligation (d0 c) (defs₀ (F := F)) Variants.none () Set.univ)
  (hin0 : ∀ c, iprop(Pipeline.ΦA spec0 c ∗ tblHeld a0 c) ⊢ (d0 c).Φ 0)
  (hout0 : ∀ c, (d0 c).Φ (Fin.last (cfg0 a0).N) ⊢ iprop(Pipeline.ΦA spec0 c ∗ tblHeld a0 c))
  (hF0 : ∀ c w, (d0 c).arrAt w (cfg0 a0).N = W2 c (Pipeline.arrRef spec0 w))
  (hrest0 : ∀ c (b : Ref sig .tc), b ∉ Finset.univ.image (Pipeline.arrRef spec0) → W2 c b = W1 c b)

set_option backward.isDefEq.respectTransparency.types false in
/-- The first call over the thread state: entered from every unscoped buffer at `W1`, left at `W2`. The label table is
    one of the unscoped buffers that are no window's array: it is split off at the entry, rides inside the call's
    invariant, and is put back beside the others at the exit. -/
def reg0 : Pipeline.RegionSeg (pcfgs (F := F)) (admF a0) (pdatsF a0 d0 d1) () defs₀ 𝒱₀ Lz lvz 0 where
  win := (launch0 (F := F)).win.to₀
  block_pos := (launch0 (F := F)).block_pos
  stage_whole := (launch0 (F := F)).stage_whole
  K := PEmpty
  osem k := k.elim
  ho := Pipeline.OwnSemFacts.none _
  hbody c := (hb0 c).loose
  hwaits := Pipeline.hwaits_of_owed_zero _ _ _ _ Lz lvz 0 fun c t => ho0 c t
  pre c := iprop(StableHlo.held (c : Thread nD τ) (Pipeline.ucRefs τ sig) (W1 c) ∗ Rs c)
  post c := iprop(StableHlo.held (c : Thread nD τ) (Pipeline.ucRefs τ sig) (W2 c) ∗ Rs c)
  X c := iprop(∃ r, prngReg c r)
  Y c := iprop((∃ r, prngReg c r) ∗ tblHeld a0 c)
  Z c := Pipeline.unscopedRestP (Ix := Unit) (Name := ℕ) (U := UR sig nD τ) (Lvl := ℕ) (pcfgs (F := F) 0).pre (pcfgs (F := F) 0).spec c (fun b => W1 c b)
  hentry c := by
    rw [Pipeline.ownSems0_none]
    unfold Pipeline.Dat.owesAt Pipeline.owesWithin
    rw [show (pdatsF a0 d0 d1 0 c).owed 0 = 0 from ho0 c 0]
    have hsplit := Pipeline.arrays_of_unscopedBufs (p := 0) (pcfgs (F := F)) (admF a0) (pdatsF a0 d0 d1) (launch0 (F := F)).win (launch0 (F := F)).arr_whole c
      ((pdatsF a0 d0 d1 0 c).share_full fun w => hq0 c w) (fun b => W1 c b) fun w => hA0 c w
    rw [Pipeline.unscopedBufs_held, Pipeline.unscopedRest_split (launch0 (F := F)).pre c (fun b => W1 c b),
      show (fun k => W1 c ((pcfgs (F := F) 0).pre.ref k)) = (admF a0 0).1 from hT c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · icases HO with ⟨%W, HO⟩; iexists W; isplitr; · ipureintro; exact fun _ _ => Or.inl ((hr0 c 0) ▸ Set.mem_univ _)
      iexact HO
    isplitl [Hp]; · iexact Hp
    iexact Hrest
  hin c := by
    refine .trans ?_ (hin0 c)
    unfold Pipeline.ΦA
    iintro ⟨Hp, Ht, Hr⟩
    isplitl [Hr Hp]
    · isplitl [Hr]; · iexact Hr
      iexact Hp
    iexact Ht
  hout c := by
    rw [Pipeline.ownSems0_none]
    refine (hout0 c).trans ?_
    unfold Pipeline.ΦA
    iintro ⟨⟨Hr, Hp⟩, Ht⟩
    isplitl [Hp Ht]
    · isplitl [Hp]; · iexact Hp
      iexact Ht
    isplitr; · iempintro
    iexact Hr
  hexit c := by
    unfold Pipeline.Dat.owesAt Pipeline.owesWithin
    rw [show (pdatsF a0 d0 d1 0 c).owed (Fin.last (Pipeline.pin (pcfgs (F := F)) (admF a0) 0).N) = 0 from ho0 c _]
    have hjoin := Pipeline.unscopedBufs_of_arrays (p := 0) (pcfgs (F := F)) (admF a0) (Ix := Unit) (Name := ℕ) (U := UR sig nD τ) (Lvl := ℕ)
      (launch0 (F := F)).win (launch0 (F := F)).arr_whole c (pdatsF a0 d0 d1) ((pdatsF a0 d0 d1 0 c).share_full fun w => hq0 c w)
      (fun b => W1 c b) (fun b => W2 c b) ((pdatsF a0 d0 d1 0 c).arrAt · (cfg0 a0).N) (fun w => hF0 c w) (hrest0 c)
    rw [Pipeline.unscopedBufs_held, Pipeline.unscopedRest_split (launch0 (F := F)).pre c (fun b => W1 c b),
      show (fun k => W1 c ((pcfgs (F := F) 0).pre.ref k)) = (admF a0 0).1 from hT c] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    icases HO with ⟨%W, -, HO⟩; iexists W; iexact HO

end First

end Cert.Kernel.Hand

end
-- ==== Proof.K.Launched.lean ====
/- The program's run from the two calls' records.

   With nothing owed at launch and no ghost state beyond the pipeline library's, every core starts holding its
   generator register and owing nothing, which is the state the records thread from item to item. Given proof data
   for the two calls with the properties the records list — the first call's stated from the buffers after the two
   host reshapes, the second's from those with the scalar the first call left — the conditional frame yields, at any
   float family: the run terminates and the three arguments end unchanged. -/
import proofs.«425759_j86672440033822_2_alg».proof.Proof.K.Records

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the launch deals -/

/-- The pipeline library's launch element at the two calls' cells, the tables pinned at `a`. -/
abbrev u0 (a : (p : Fin 2) → (pcfgs (F := F) p).Adm) :=
  initOf (Pipeline.cells (Pipeline.pin (pcfgs (F := F)) a) (cellOf_inj a)) (Pipeline.launchToks (Pipeline.pin (pcfgs (F := F)) a) (cellOf_inj a))

/-- The launch element is the library's own, and no core gets anything besides. -/
theorem hu0 (a : (p : Fin 2) → (pcfgs (F := F) p).Adm) :
    (ownU (u0 a) : sProp 𝕄) ⊢ |={Set.univ}=> iprop(BI.own (emb₁ (u0 a)) ∗ bigSep Finset.univ (fun _ : Dev nD => (BI.emp : sProp 𝕄))) := by
  iintro Hu; imodintro
  isplitl [Hu]
  · iapply (show (ownU (u0 a) : sProp 𝕄) ⊢ BI.own (emb₁ (u0 a)) from .rfl)
    iexact Hu
  iapply (show (BI.emp : sProp 𝕄) ⊢ bigSep Finset.univ (fun _ : Dev nD => (BI.emp : sProp 𝕄)) from by rw [BI.bigSep_emp_const])
  iempintro

/-- Every core starts with its generator register at its launch state and owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rs (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- At the end the core owes nothing. -/
theorem hE2 (c : Dev nD) : Rs (F := F) c ⊢ (iprop(∃ W, owes (c : Thread nD τ) (0 : CellTallies nD τ sig Unit) W) : sProp 𝕄) := by
  iintro ⟨-, HO⟩; iexact HO

/-! ## The run -/

section Run

variable (m : (ℓ : Loc nD τ sig) → Buf (Elt F) ℓ) (ρ : Dev nD → PrngReg) (outs : Outs (F := F))
  (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (hT : ∀ c, (fun k => V1 m c (pre0.ref k)) = a0.1)
  (hA0 : ∀ c w, (d0 c).A w = V1 m c (Pipeline.arrRef spec0 w))
  (hq0 : ∀ c w, (d0 c).q w = fullShare)
  (ho0 : ∀ c t, (d0 c).owed t = 0)
  (hr0 : ∀ c t, (d0 c).recorded t = Set.univ)
  (hb0 : ∀ c, BodyObligation (d0 c) (defs₀ (F := F)) Variants.none () Set.univ)
  (hin0 : ∀ c, iprop(Pipeline.ΦA spec0 c ∗ tblHeld a0 c) ⊢ (d0 c).Φ 0)
  (hout0 : ∀ c, (d0 c).Φ (Fin.last (cfg0 a0).N) ⊢ iprop(Pipeline.ΦA spec0 c ∗ tblHeld a0 c))
  (hF0 : ∀ c w, (d0 c).arrAt w (cfg0 a0).N = V2 m outs c (Pipeline.arrRef spec0 w))
  (hrest0 : ∀ c (b : Ref sig .tc), b ∉ Finset.univ.image (Pipeline.arrRef spec0) → V2 m outs c b = V1 m c b)
  (hA1 : ∀ c w, (d1 c).A w = V2 m outs c (Pipeline.arrRef spec1 w))
  (hq1 : ∀ c w, (d1 c).q w = fullShare)
  (ho1 : ∀ c t, (d1 c).owed t = 0)
  (hr1 : ∀ c t, (d1 c).recorded t = Set.univ)
  (hΦ1 : ∀ c t, (d1 c).Φ t = Pipeline.ΦA spec1 c)
  (hb1 : ∀ c, BodyObligation (d1 c) (defs₀ (F := F)) Variants.none () Set.univ)
  (hF1 : ∀ c w, (d1 c).arrAt w cfg1.N = V3 m outs c (Pipeline.arrRef spec1 w))
  (hrest1 : ∀ c (b : Ref sig .tc), b ∉ Finset.univ.image (Pipeline.arrRef spec1) → V3 m outs c b = V2 m outs c b)

include hT hA0 hq0 ho0 hr0 hb0 hin0 hout0 hF0 hrest0 hA1 hq1 ho1 hr1 hΦ1 hb1 hF1 hrest1

/-- The frame: the run terminates and the three arguments end as launched. -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ Lz lvz (fun _ _ => rfl) ρ outs (admF a0) (pdatsF a0 d0 d1) 0 (fun _ => BI.emp) (u0 (admF a0)) (hu0 (admF a0))
    (fun _ c => Rs c) (hE0 ρ) hE2
    (reg0 a0 d0 d1 (V1 m) (V2 m outs) hT hA0 hq0 ho0 hr0 hb0 hin0 hout0 hF0 hrest0) (fun _ => .rfl) (fun _ => .rfl)
    (reg1 a0 d0 d1 (V2 m outs) (V3 m outs) hA1 hq1 ho1 hr1 hΦ1 hb1 hF1 hrest1) (fun _ => .rfl) (fun _ => .rfl)

end Run

end Cert.Kernel.Hand

end
-- ==== Proof.K.KernelFrame.lean ====
/- The two calls' proof data at the program's own buffers, and the frame they give.

   The label table is read off the launch memory; `Ok` is the pipeline's side condition of it (every row the table
   selects lies in the centres' array). The first call is entered from the buffers after the two host reshapes; the
   second from those with the first call's scalar in its output buffer; what each call's write-back leaves in its
   output is what the run's unknowns are set to. -/
import proofs.«425759_j86672440033822_2_alg».proof.Proof.K.Region0
import proofs.«425759_j86672440033822_2_alg».proof.Proof.K.Region1
import proofs.«425759_j86672440033822_2_alg».proof.Proof.K.Launched

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The label table -/

/-- The label table as launched (the program runs on one device). -/
def tbl : pre0.Contents (Elt F) := fun k => m (((0 : Dev nD) : Thread nD τ).loc (pre0.ref k))

/-- Neither host reshape writes the table: the first call finds it as launched. -/
theorem V1_tbl (c : Dev nD) : (fun k => V1 m c (pre0.ref k)) = tbl m := by
  obtain rfl : c = 0 := Subsingleton.elim _ _
  funext k
  match k with
  | ⟨0, _⟩ => exact (V1_of m 0 main_arg2 (by decide)).trans rfl

/-- Every row the table selects lies in the centres' array. -/
abbrev Ok : Prop := ok0 (F := F) (tbl m)
/-- The table as admissible contents. -/
abbrev adm0 (hO : Ok m) : (pcfg0 (F := F)).Adm := ⟨tbl m, hO⟩

/-! ## The proof data and what the calls leave -/

section Data

variable (hO : Ok m)

/-- The first call's data: entered from the buffers after the host reshapes, the table riding whole in its invariant. -/
abbrev d0 (c : Dev nD) : Dat τ (Elt F) Unit ℕ (UR sig nD τ) ℕ (cfg0 (adm0 m hO)) c :=
  dat0 (adm0 m hO) (fun c b => V1 m c b) (tblHeld (adm0 m hO)) c

/-- What the first call leaves in its one-cell output. -/
abbrev o2 (c : Dev nD) : Buf (Elt F) ((c : Thread nD τ).loc main_v2) := (d0 m hO c).arrAt 2 (cfg0 (adm0 m hO)).N

/-- The buffers between the two calls. -/
abbrev Wb (c : Dev nD) : Valuation τ sig (Elt F) := Function.update (V1 m c) main_v2 (o2 m hO c)

/-- The second call's data, entered from those. -/
abbrev d1 (c : Dev nD) : Dat τ (Elt F) Unit ℕ (UR sig nD τ) ℕ cfg1 c := dat1 (fun c b => Wb m hO c b) c

/-- What the second call leaves in the result buffer. -/
abbrev o3 (c : Dev nD) : Buf (Elt F) ((c : Thread nD τ).loc main_v3) := (d1 m hO c).arrAt 2 cfg1.N

/-- The run's unknowns: what each call leaves in the buffer it may change. -/
def outs : Outs (F := F) := fun _ r c =>
  if h2 : r = main_v2 then h2 ▸ o2 m hO c else if h3 : r = main_v3 then h3 ▸ o3 m hO c else m ((c : Thread nD τ).loc r)

theorem outs_v2 (c : Dev nD) : outs m hO 2 main_v2 c = o2 m hO c := by
  unfold outs; rw [dif_pos rfl]
theorem outs_v3 (c : Dev nD) : outs m hO 3 main_v3 c = o3 m hO c := by
  unfold outs; rw [dif_neg (by decide), dif_pos rfl]

theorem V2_eq (c : Dev nD) : V2 m (outs m hO) c = Wb m hO c := by
  unfold V2 Wb; rw [outs_v2]

/-! ## The hypotheses of the launch -/

theorem hF0 (c : Dev nD) (w : Fin (cfg0 (adm0 m hO)).W) :
    (d0 m hO c).arrAt w (cfg0 (adm0 m hO)).N = V2 m (outs m hO) c (Pipeline.arrRef spec0 w) :=
  match w with
  | ⟨0, _⟩ => ((d0 m hO c).arrAt_in 0 rfl _).trans ((A_eq0 _ _ _ c 0).trans (V2_of m (outs m hO) c main_v0 (by decide)).symm)
  | ⟨1, _⟩ => ((d0 m hO c).arrAt_in 1 rfl _).trans ((A_eq0 _ _ _ c 1).trans (V2_of m (outs m hO) c main_v1 (by decide)).symm)
  | ⟨2, _⟩ => by
      show o2 m hO c = V2 m (outs m hO) c main_v2
      rw [V2_eq]; unfold Wb; rw [Function.update_self]

theorem hrest0 (c : Dev nD) (b : Ref sig .tc) (hb : b ∉ Finset.univ.image (Pipeline.arrRef spec0)) :
    V2 m (outs m hO) c b = V1 m c b :=
  V2_of m (outs m hO) c b fun h => hb (by
    rw [List.mem_singleton] at h; subst h
    exact Finset.mem_image.mpr ⟨2, Finset.mem_univ _, rfl⟩)

theorem hA1 (c : Dev nD) (w : Fin cfg1.W) : (d1 m hO c).A w = V2 m (outs m hO) c (Pipeline.arrRef spec1 w) := by
  rw [V2_eq]; exact A_eq1 _ c w

theorem hF1 (c : Dev nD) (w : Fin cfg1.W) :
    (d1 m hO c).arrAt w cfg1.N = V3 m (outs m hO) c (Pipeline.arrRef spec1 w) :=
  match w with
  | ⟨0, _⟩ => ((d1 m hO c).arrAt_in 0 rfl _).trans ((hA1 m hO c 0).trans (V3_of m (outs m hO) c main_arg0 (by decide)).symm)
  | ⟨1, _⟩ => ((d1 m hO c).arrAt_in 1 rfl _).trans ((hA1 m hO c 1).trans (V3_of m (outs m hO) c main_v2 (by decide)).symm)
  | ⟨2, _⟩ => by
      show o3 m hO c = V3 m (outs m hO) c main_v3
      unfold V3; rw [Function.update_self, outs_v3]

theorem hrest1 (c : Dev nD) (b : Ref sig .tc) (hb : b ∉ Finset.univ.image (Pipeline.arrRef spec1)) :
    V3 m (outs m hO) c b = V2 m (outs m hO) c b :=
  V3_of m (outs m hO) c b fun h => hb (by
    rw [List.mem_singleton] at h; subst h
    exact Finset.mem_image.mpr ⟨2, Finset.mem_univ _, rfl⟩)

end Data

/-! ## The frame and the run -/

variable (ρ : Dev nD → PrngReg)

/-- THE FRAME, at any float family, for a label table inside the centres' array: the run terminates and the three
    arguments end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_gen m ρ (outs m hO) (adm0 m hO) (d0 m hO) (d1 m hO)
    (V1_tbl m) (fun c w => A_eq0 _ _ _ c w) (fun _ _ => rfl) (fun _ _ => rfl) (fun _ _ => rfl)
    (fun c => body_obligation0 _ _ _ c) (fun c => hin0 _ _ _ c) (fun c => hout0 _ _ _ c) (hF0 m hO) (hrest0 m hO)
    (hA1 m hO) (fun _ _ => rfl) (fun _ _ => rfl) (fun _ _ => rfl) (fun _ _ => rfl)
    (fun c => body_obligation1 _ c) (hF1 m hO) (hrest1 m hO)

end Cert.Kernel.Hand

end
-- ==== Proof.K.OkOfPre.lean ====
/- From the printed precondition to the range of the labels, and from that range to the side condition the
   first call's pipeline puts on its prefetched table.

   The precondition is a scalar conjunction of three "for all" tests. Its third conjunct says of every label word
   that it is at least 0 and below 100000 when read as a signed integer; such a word is below 100000 read unsigned.
   The gather window of the first call fetches, at grid point b, the block whose leading block index is the label
   word b (unsigned) and whose other two block indices are 0; with blocks of extent 1 × 1 × 512 in an array of
   extent 100000 × 1 × 512 the block lies inside the array exactly when that word is below 100000, and a 32-bit
   element type moves whole words. -/
import proofs.«425759_j86672440033822_2_alg».proof.Pre_finite_inputs
import proofs.«425759_j86672440033822_2_alg».proof.Proof.Gen.Pre_finite_inputs
import proofs.«425759_j86672440033822_2_alg».proof.Kernel
import proofs.«425759_j86672440033822_2_alg».proof.Proof.Gen.Kernel
import Idealize.ShloMosaic.Lib.ReduceAll
import Idealize.ShloMosaic.Lib.StableHlo.Predicate
import Idealize.ShloMosaic.Lib.ValueIdx

noncomputable section

namespace Cert.HandK.OkOfPre

open Idealize.ShloMosaic

variable {F : FTy → Type} [FloatOps F]

/-! ## Words -/

/-- A 32-bit word that is at least 0 and below 100000 as a signed integer is below 100000 as a natural number:
    a non-negative signed reading is the unsigned one. -/
theorem toNat_lt_of_signed (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hw := w.isLt
  rw [BitVec.toInt_eq_toNat_cond] at h0 h1
  split at h0 <;> omega

/-! ## The precondition, decoded -/

/-- The scalar shape has one index. -/
instance : Subsingleton Cert.Pre_finite_inputs.S_.Idx := ⟨fun a b => funext fun d => d.elim0⟩

/-- Under the printed precondition every label is a row number of the 100000-row table. -/
theorem labels_in_range [Cert.Pre_finite_inputs.Facts] (x0 : FVec F Cert.Pre_finite_inputs.S256x512 .f32)
    (x1 : FVec F Cert.Pre_finite_inputs.S100000x512 .f32) (lab : IVec Cert.Pre_finite_inputs.S256 32)
    (h : Cert.Pre_finite_inputs.fn (F := F) x0 x1 lab = fun _ => 1#1) :
    ∀ b : Fin 256, (lab (ValueIdx.ix1 b)).toNat < 100000 := by
  intro b
  have e := congrFun h ValueIdx.ix0
  dsimp only [Cert.Pre_finite_inputs.fn] at e
  -- the outer conjunction: (finite features ∧ finite centres) ∧ labels in range
  obtain ⟨-, e3⟩ := IntOp.andi_eq_one.1 e
  -- "for all b": the conjunction at label b
  have eb := Host.reduce_andi_all _ _ _ _ _ e3 (ValueIdx.ix1 b)
  obtain ⟨g0, g1⟩ := IntOp.andi_eq_one.1 eb
  exact toNat_lt_of_signed _ g0 g1

/-! ## The prefetched table -/

section Table

open Cert.Kernel

variable [Cert.Kernel.Facts₀]

/-- The block index the gather window's index map computes at grid point i: the label word at position i 0 of the
    table, read unsigned, then 0 and 0. The index map loads the table through the one-element rectangle at
    offset i 0 (a grid coordinate is below 256, so it survives the round trip through a 32-bit word), and that
    rectangle's one element sits at position i 0. -/
theorem transform_1_eq (pf : pre0.Contents (Elt F)) (i : grid0.Coords) :
    cc0_transform_1 Facts₀.k0_off1_inb Facts₀.numel1_S1 pf i
      = ![(pf 0 (ValueIdx.ix1 (n := 256) (i 0))).toNat, 0, 0] := by
  have hi : (i 0).val < 256 := (i 0).isLt
  have hidx : (Rect.unit (s := S256) ![(Scalar.indexCast (BitVec.ofNat 32 (i 0).val)).toNat] S1.size (Facts₀.k0_off1_inb i)).emb
      (Shape.Idx.first (Facts₀.numel1_S1.symm ▸ Nat.one_pos)) = ValueIdx.ix1 (n := 256) (i 0) := by
    funext a
    match a with
    | ⟨0, _⟩ =>
      apply Fin.ext
      show (BitVec.ofNat 32 (i 0).val).toNat + 1 * 0 = (i 0).val
      rw [BitVec.toNat_ofNat, Nat.mod_eq_of_lt (by omega)]
      omega
  unfold cc0_transform_1
  exact congrArg (fun j : S256.Idx => ![(pf 0 j).toNat, 0, 0]) hidx

/-- The side condition, from a bound on the leading block index at every grid point. -/
theorem ok0_of_lt (pf : pre0.Contents (Elt F))
    (h : ∀ i : grid0.Coords, cc0_transform_1 Facts₀.k0_off1_inb Facts₀.numel1_S1 pf i 0 < 100000) : ok0 (F := F) pf := by
  intro i
  have h0 := h i
  have h1 : cc0_transform_1 Facts₀.k0_off1_inb Facts₀.numel1_S1 pf i 1 = 0 := by rw [transform_1_eq]; rfl
  have h2 : cc0_transform_1 Facts₀.k0_off1_inb Facts₀.numel1_S1 pf i 2 = 0 := by rw [transform_1_eq]; rfl
  refine ⟨fun a => ?_, Or.inl rfl⟩
  match a with
  | ⟨0, _⟩ =>
    show (cc0_transform_1 Facts₀.k0_off1_inb Facts₀.numel1_S1 pf i 0 + 1) * 1 ≤ 100000
    omega
  | ⟨1, _⟩ =>
    show (cc0_transform_1 Facts₀.k0_off1_inb Facts₀.numel1_S1 pf i 1 + 1) * 1 ≤ 1
    omega
  | ⟨2, _⟩ =>
    show (cc0_transform_1 Facts₀.k0_off1_inb Facts₀.numel1_S1 pf i 2 + 1) * 512 ≤ 512
    omega

/-- The side condition, from the range of the table's words: every fetched block of the 100000 × 1 × 512 array
    starts at a row the table names, and those are rows of the array. -/
theorem ok0_of_range (pf : pre0.Contents (Elt F))
    (h : ∀ b : Fin 256, (pf 0 (ValueIdx.ix1 (n := 256) b)).toNat < 100000) : ok0 (F := F) pf := by
  refine ok0_of_lt pf fun i => ?_
  rw [transform_1_eq]
  exact h (i 0)

end Table

end Cert.HandK.OkOfPre

end
-- ==== Proof.Region0.lean ====
/- The first pallas_call's region: a one-cell accumulator carried across the 256 grid points.

   At point `b` the body sees row `b` of the features and the row of the centres that label `b` selects,
   and adds `(Σ f² + Σ c²) − 2·Σ f·c` to the accumulator; the accumulator is set to zero first at point 0, and
   copied to the 1×1 output after the update at point 255. Three control cases therefore: the first point
   (reset, then update), the middle points (update), the last point (update, then copy out). The label table
   is read by the second window's index map only, never by the body, so whatever holds the table rides
   through the region untouched. -/
import proofs.«425759_j86672440033822_2_alg».proof.Proof.Gen.KernelIdeal.Launch
import proofs.«425759_j86672440033822_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one-cell accumulator the body carries from point to point: a whole scoped buffer of the call's own. -/
abbrev scM0 : Memref sig .tc .vmem S1x1x1 .f32 := Memref.whole cc0_scratch0

namespace Region0

/-! ## The two conditions of the body, in closed form over the grid -/

/-- The body's first conditional: the point is the first. -/
abbrev condA (i : grid0.Coords) : Prop :=
  (Scalar.cmpi .ne (Scalar.extui (Scalar.cmpi .eq (BitVec.ofNat 32 (i 0).val) 0#32)) 0#32) = 1#1
theorem hcondA : ∀ t : Fin grid0.N, condA (grid0.coords t) ↔ t.val = 0 := by decide +kernel

/-- The body's second conditional: the point is the last. -/
abbrev condC (i : grid0.Coords) : Prop := k0_cond2 i = 1#1
theorem hcondC : ∀ t : Fin grid0.N, condC (grid0.coords t) ↔ t.val = 255 := by decide +kernel

/-! ## The output window's schedule: idle and not written back before the last point, live and written back there -/

theorem flushOut : ∀ t : Fin grid0.N, Pipeline.Window.flushOf grid0 true cc0_transform_2 t = decide (t.val = 255) := by
  decide +kernel

section Region

variable (a0 : (pcfg0 (F := F)).Adm)

theorem flush2 (t : Fin (cfg0 a0).N) : ((cfg0 a0).win 2).flush t = decide (t.val = 255) := flushOut t

theorem idle2_of_not (t : Fin (cfg0 a0).N) (h : ¬ condC (grid0.coords t)) : (cfg0 a0).idle 2 (grid0.coords t) = true := by
  show (!(k0_cond2 (grid0.coords t) == 1#1)) = true
  simp only [Bool.not_eq_true', beq_eq_false_iff_ne, ne_eq]; exact h

theorem idle2_of (t : Fin (cfg0 a0).N) (h : condC (grid0.coords t)) : (cfg0 a0).idle 2 (grid0.coords t) = false := by
  show (!(k0_cond2 (grid0.coords t) == 1#1)) = false
  simp only [Bool.not_eq_false', beq_iff_eq]; exact h

/-- Each window's current staging memref at point `t`; the label table as the body is handed it. -/
abbrev st0 (t : Fin (cfg0 a0).N) : Memref sig .tc .vmem S1x1x512 .f32 := spec0_0.stage ((cfg0 a0).slots t 0)
abbrev hst0 (t : Fin (cfg0 a0).N) : (st0 a0 t).IsWhole := hstage0_0 (((cfg0 a0).slots t 0).cast nbuf0_0)
abbrev st1 (t : Fin (cfg0 a0).N) : Memref sig .tc .vmem S1x1x512 .f32 := spec0_1.stage ((cfg0 a0).slots t 1)
abbrev hst1 (t : Fin (cfg0 a0).N) : (st1 a0 t).IsWhole := hstage0_1 (((cfg0 a0).slots t 1).cast nbuf0_1)
abbrev st2 (t : Fin (cfg0 a0).N) : Memref sig .tc .vmem S1x1 .f32 := spec0_2.stage ((cfg0 a0).slots t 2)
abbrev hst2 (t : Fin (cfg0 a0).N) : (st2 a0 t).IsWhole := hstage0_2 (((cfg0 a0).slots t 2).cast nbuf0_2)
abbrev tbM0 : Memref sig .tc .smem S256 .i32 := Memref.whole main_arg2

/-- The body as the pipeline calls it at point `t`. -/
abbrev bodyAt0 (t : Fin (cfg0 a0).N) : Prog (TpuEff nD τ sig (Elt F) Λ₀ .tc) PUnit :=
  cc0__gather_sum_kernel (grid0.coords t) tbM0 (Memref.isWhole_whole _) (st0 a0 t) (hst0 a0 t) (st1 a0 t) (hst1 a0 t)
    (st2 a0 t) (hst2 a0 t) scM0 (Memref.isWhole_whole _)

end Region

/-! ## The body's triple, case by case

Every store writes its whole one-cell (or one-row) buffer through the unit rectangle at zero offsets, and every load
reads a whole buffer through it: a buffer read back after a store holds that store's value, whatever it held before. -/

theorem hz3 : (![0, 0, 0] : Fin 3 → ℕ) = fun _ => 0 := funext fun a => by fin_cases a <;> rfl
theorem hz2 : (![0, 0] : Fin 2 → ℕ) = fun _ => 0 := funext fun a => by fin_cases a <;> rfl

set_option maxHeartbeats 1000000 in
/-- The first point: the accumulator, at anything, is set to zero and then updated; the output buffer is handed back
    as it was found. -/
theorem runA (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : condA i) (hC : ¬ condC i)
    (x0 x1 : Vec F S1x1x512 .f32) (xo : Vec F S1x1 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 (k0_pay1 (F := F)))) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%fo, %hfo, HO⟩, ⟨%ds, %fs, -, HS⟩, Hk⟩
  subst hf0; subst hf1; subst hfo
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.readCov_unit_zero (S := S1x1x1) _ hz3]

set_option maxHeartbeats 1000000 in
/-- A middle point: the accumulator, at what the point before left, is updated; the output buffer is handed back as
    it was found. -/
theorem runB (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : ¬ condA i) (hC : ¬ condC i)
    (x0 x1 : Vec F S1x1x512 .f32) (xo : Vec F S1x1 .f32) (xs : Vec F S1x1x1 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 xs)) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.ld_unit_zero (S := S1x1x1) hz3]

set_option maxHeartbeats 1000000 in
/-- The last point: the accumulator, at what the point before left, is updated and then copied to the output buffer,
    which may hold anything before. -/
theorem runC (c : Dev nD) (E : Set ℕ) (i : grid0.Coords) (arg1 : Memref sig .tc .smem S256 .i32) (harg1 : arg1.IsWhole)
    (arg2 : Memref sig .tc .vmem S1x1x512 .f32) (harg2 : arg2.IsWhole) (arg3 : Memref sig .tc .vmem S1x1x512 .f32) (harg3 : arg3.IsWhole)
    (arg4 : Memref sig .tc .vmem S1x1 .f32) (harg4 : arg4.IsWhole) (arg5 : Memref sig .tc .vmem S1x1x1 .f32) (harg5 : arg5.IsWhole)
    (hA : ¬ condA i) (hC : condC i)
    (x0 x1 : Vec F S1x1x512 .f32) (xs : Vec F S1x1x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__gather_sum_kernel i arg1 harg1 arg2 harg2 arg3 harg3 arg4 harg4 arg5 harg5) K := by
  simp only [cc0__gather_sum_kernel_eq_skeleton]; unfold cc0__gather_sum_kernel_skel
  unfold owns
  iintro ⟨⟨%f0, %hf0, H0⟩, ⟨%f1, %hf1, H1⟩, ⟨%d_o, %fo, -, HO⟩, ⟨%fs, %hfs, HS⟩, Hk⟩
  subst hf0; subst hf1; subst hfs
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.read_writes_eq_canon _ _ _ (fun y => ⟨_, List.mem_cons_self, View.mem_set_unit_zero hz2 inb_S1x1_S1x1_0_0 y⟩),
      View.canon_cons_unit_zero hz2]
    simp only [View.readAt_eq_ld, View.ld_unit_zero (S := S1x1x512) hz3, View.ld_unit_zero (S := S1x1x1) hz3,
      View.readCov_unit_zero (S := S1x1x1) _ hz3]
  iexists _; isplitr
  swap; · iexact HS
  ipureintro
  sl_unfold_run_names
  rw [View.read_writes_eq_canon _ _ _ (fun y => ⟨_, List.mem_cons_self, View.mem_set_unit_zero hz3 inb_S1x1x1_S1x1x1_0_0_0 y⟩),
    View.canon_cons_unit_zero hz3]
  simp only [View.readAt_eq_ld, View.ld_unit_zero (S := S1x1x512) hz3, View.ld_unit_zero (S := S1x1x1) hz3]

end Region0

open Region0

/-! ## The region's data -/

section Data

variable (a0 : (pcfg0 (F := F)).Adm)
variable (V : (c : Dev nD) → (b : Ref sig .tc) → Buf (Elt F) ((c : Thread nD τ).loc b))
-- a resource the region never touches: whatever holds the label table while the region runs
variable (Rd : Dev nD → sProp (MT nD τ sig Unit (Elt F) ℕ (UR sig nD τ) ℕ))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

namespace Region0

/-- An input window that is never cut and never idle, and whose block the body leaves in place, holds its block at
    every point, fetched there or not: an unfetched point has the block index of the point before. For the features'
    rows, -/
theorem before_of_0 {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- and for the centres' rows, whichever row the label selects. -/
theorem before_of_1 {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- What the accumulator holds after point `n`: zero updated by the first point's rows, then by each later point's. -/
def accAt (c : Dev nD) : (n : ℕ) → n < (cfg0 a0).N → Vec F S1x1x1 .f32
  | 0, h => k0_pay2 (iblk0 a0 V c 0 ⟨0, h⟩) (iblk0 a0 V c 1 ⟨0, h⟩) (k0_pay1 (F := F))
  | n + 1, h => k0_pay2 (iblk0 a0 V c 0 ⟨n + 1, h⟩) (iblk0 a0 V c 1 ⟨n + 1, h⟩) (accAt c n (Nat.lt_of_succ_lt h))

theorem accAt_zero (c : Dev nD) (h : 0 < (cfg0 a0).N) :
    accAt a0 V c 0 h = k0_pay2 (iblk0 a0 V c 0 ⟨0, h⟩) (iblk0 a0 V c 1 ⟨0, h⟩) (k0_pay1 (F := F)) := rfl

theorem accAt_succ (c : Dev nD) (n : ℕ) (h : n + 1 < (cfg0 a0).N) :
    accAt a0 V c (n + 1) h = k0_pay2 (iblk0 a0 V c 0 ⟨n + 1, h⟩) (iblk0 a0 V c 1 ⟨n + 1, h⟩) (accAt a0 V c n (Nat.lt_of_succ_lt h)) := rfl

namespace Region0

/-- At the first point, -/
theorem accAt_first (c : Dev nD) (t : Fin (cfg0 a0).N) (h : t.val = 0) :
    accAt a0 V c t.val t.isLt = k0_pay2 (iblk0 a0 V c 0 t) (iblk0 a0 V c 1 t) (k0_pay1 (F := F)) := by
  obtain ⟨n, hn⟩ := t
  cases n with
  | zero => rfl
  | succ n => exact absurd h (Nat.succ_ne_zero n)

/-- and at a later one, over what the point before left. -/
theorem accAt_later (c : Dev nD) (t : Fin (cfg0 a0).N) (h : t.val ≠ 0) :
    accAt a0 V c t.val t.isLt = k0_pay2 (iblk0 a0 V c 0 t) (iblk0 a0 V c 1 t)
      (accAt a0 V c (t.val - 1) (Nat.lt_of_le_of_lt (Nat.sub_le _ _) t.isLt)) := by
  obtain ⟨n, hn⟩ := t
  cases n with
  | zero => exact absurd rfl h
  | succ n => rfl

/-- The core's scoped buffers this call neither stages nor stores into: the second call's three staging buffers, each
    at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- What the launch hands the region, with the accumulator named as a memref owned at some contents. -/
theorem PhiA0_eq (c : Dev nD) :
    (Pipeline.ΦA spec0 c : sProp 𝕄)
      = iprop(((∃ d, owns (c : Thread nD τ) scM0 fullShare d) ∗ restS (F := F) c) ∗ (∃ r, prngReg c r)) := by
  unfold Pipeline.ΦA restS; rw [scopedRest0_eq]; simp only [scM0, owns_whole]; try rfl

/-- The invariant before position `n`, the table's holder apart: before the first point what the launch hands over;
    afterwards the accumulator at what the point before left, the other scoped buffers at anything, the generator
    register at some state. -/
def PhiS (c : Dev nD) : (n : ℕ) → n ≤ (cfg0 a0).N → sProp 𝕄
  | 0, _ => Pipeline.ΦA spec0 c
  | n + 1, hn => iprop((owns (c : Thread nD τ) scM0 fullShare (accAt a0 V c n hn) ∗ restS (F := F) c) ∗ (∃ r, prngReg c r))

theorem PhiS_zero (c : Dev nD) (n : ℕ) (h : n ≤ (cfg0 a0).N) (hz : n = 0) : PhiS a0 V c n h = Pipeline.ΦA spec0 c := by
  subst hz; rfl

theorem PhiS_succ (c : Dev nD) (n : ℕ) (hn : n < (cfg0 a0).N) :
    PhiS a0 V c (n + 1) hn
      = iprop((owns (c : Thread nD τ) scM0 fullShare (accAt a0 V c n hn) ∗ restS (F := F) c) ∗ (∃ r, prngReg c r)) := rfl

theorem PhiS_pos (c : Dev nD) (n : ℕ) (h : n ≤ (cfg0 a0).N) (hz : n ≠ 0) :
    PhiS a0 V c n h
      = iprop((owns (c : Thread nD τ) scM0 fullShare (accAt a0 V c (n - 1) (by omega)) ∗ restS (F := F) c) ∗ (∃ r, prngReg c r)) := by
  cases n with
  | zero => exact absurd rfl hz
  | succ n => rfl

end Region0

/-- The region's data on core `c`: the arrays as the region finds them; after the body each input's buffer at its
    block, the output's at the accumulator copied out (read only at the last point); the invariant `PhiS` beside the
    table's holder; full shares; nothing owed. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => k0_pay3 (accAt a0 V c t.val t.isLt)
  Φ t := iprop(PhiS a0 V c t.val (Nat.le_of_lt_succ t.isLt) ∗ Rd c)
  q _ := fullShare
  owed _ := 0

theorem A_eq0 (c : Dev nD) (w : Fin (cfg0 a0).W) : (dat0 a0 V Rd c).A w = V c (Pipeline.arrRef spec0 w) := by
  dsimp only [dat0]

namespace Region0

theorem Phi_castSucc (c : Dev nD) (t : Fin (cfg0 a0).N) :
    (dat0 a0 V Rd c).Φ t.castSucc = iprop(PhiS a0 V c t.val (Nat.le_of_lt t.isLt) ∗ Rd c) := by
  dsimp only [dat0]; simp only [Fin.coe_castSucc]

theorem after0_0 (c : Dev nD) (t : Fin (cfg0 a0).N) : (dat0 a0 V Rd c).after 0 t = iblk0 a0 V c 0 t := by dsimp only [dat0]; try rfl
theorem after0_1 (c : Dev nD) (t : Fin (cfg0 a0).N) : (dat0 a0 V Rd c).after 1 t = iblk0 a0 V c 1 t := by dsimp only [dat0]; try rfl
theorem after0_2 (c : Dev nD) (t : Fin (cfg0 a0).N) :
    (dat0 a0 V Rd c).after 2 t = k0_pay3 (accAt a0 V c t.val t.isLt) := by dsimp only [dat0]; try rfl

theorem before0_0 (c : Dev nD) (t : Fin (cfg0 a0).N) (d) : (dat0 a0 V Rd c).before 0 t d = iblk0 a0 V c 0 t :=
  before_of_0 a0 V (dat0 a0 V Rd c) (A_eq0 a0 V Rd c 0) (after0_0 a0 V Rd c) t d
theorem before0_1 (c : Dev nD) (t : Fin (cfg0 a0).N) (d) : (dat0 a0 V Rd c).before 1 t d = iblk0 a0 V c 1 t :=
  before_of_1 a0 V (dat0 a0 V Rd c) (A_eq0 a0 V Rd c 1) (after0_1 a0 V Rd c) t d
/-! ## The body obligation -/

/-- A window live at a point hands its buffer back at what the body leaves there. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t`, window by window, -/
def bodyPre (c : Dev nD) (t : Fin (cfg0 a0).N) : sProp 𝕄 :=
  iprop((dat0 a0 V Rd c).Φ t.castSucc ∗ (dat0 a0 V Rd c).owesAt () t.castSucc
    ∗ (∃ d, owns (c : Thread nD τ) (st0 a0 t) fullShare ((dat0 a0 V Rd c).before 0 t d))
    ∗ (∃ d, owns (c : Thread nD τ) (st1 a0 t) fullShare ((dat0 a0 V Rd c).before 1 t d))
    ∗ (∃ d, owns (c : Thread nD τ) (st2 a0 t) fullShare ((dat0 a0 V Rd c).before 2 t d)))

/-- and what it returns. -/
def bodyPost (c : Dev nD) (t : Fin (cfg0 a0).N) : sProp 𝕄 :=
  iprop((dat0 a0 V Rd c).Φ t.succ ∗ (dat0 a0 V Rd c).owesAt () t.succ
    ∗ (dat0 a0 V Rd c).leavesExact 0 t
    ∗ (dat0 a0 V Rd c).leavesExact 1 t
    ∗ (dat0 a0 V Rd c).leavesExact 2 t)

set_option maxHeartbeats 4000000 in
/-- The body at any point. The two input buffers hold their rows; the point's position selects the case. At the
    first point the accumulator may hold anything and ends at zero updated by the point's rows; at a later point it holds
    what the point before left and ends at that updated; before the last point the output buffer is idle and is handed
    back as found, at the last it ends at the accumulator copied out. The table's holder and what the core owes pass
    through unread. -/
theorem sound_body (c : Dev nD) (t : Fin (cfg0 a0).N) :
    bodyPre a0 V Rd c t ⊢ wp frame (wpE (defs₀ (F := F)) Variants.none c none) Set.univ (bodyAt0 a0 t) (fun _ => bodyPost a0 V Rd c t) := by
  unfold bodyPre bodyPost bodyAt0
  simp only [before0_0, before0_1]
  rw [show (dat0 a0 V Rd c).owesAt () t.succ = (dat0 a0 V Rd c).owesAt () t.castSucc from rfl]
  rw [show (dat0 a0 V Rd c).Φ t.succ = iprop(PhiS a0 V c (t.val + 1) t.isLt ∗ Rd c) from rfl, PhiS_succ]
  rw [leavesExact_live (dat0 a0 V Rd c) 0 t rfl, leavesExact_live (dat0 a0 V Rd c) 1 t rfl, after0_0, after0_1, Phi_castSucc]
  have hN : t.val < 256 := lt_of_lt_of_eq t.isLt (show (cfg0 a0).N = 256 from N_0)
  by_cases h0 : t.val = 0
  · have hA : condA (grid0.coords t) := (hcondA t).mpr h0
    have hC : ¬ condC (grid0.coords t) := fun h => by have := (hcondC t).mp h; omega
    rw [Dat.leavesExact_idle (dat0 a0 V Rd c) 2 t (idle2_of_not a0 t hC)
      (by rw [flush2]; exact decide_eq_false (by omega))]
    rw [PhiS_zero a0 V c _ _ h0, PhiA0_eq, accAt_first a0 V c t h0]
    iintro ⟨⟨⟨⟨HS, HR⟩, Hg⟩, HT⟩, Ho, ⟨%d0, H0⟩, ⟨%d1, H1⟩, ⟨%d2, H2⟩⟩
    iapply (runA c Set.univ (grid0.coords t) _ _ _ _ _ _ _ _ _ _ hA hC (iblk0 a0 V c 0 t) (iblk0 a0 V c 1 t)
      ((dat0 a0 V Rd c).before 2 t d2) _)
    isplitl [H0]; · iexact H0
    isplitl [H1]; · iexact H1
    isplitl [H2]; · iexact H2
    isplitl [HS]; · iexact HS
    iintro ⟨H0, H1, H2, HS⟩
    isplitl [HS HR Hg HT]
    · isplitl [HS HR Hg]
      · isplitl [HS HR]
        · isplitl [HS]; · iexact HS
          iexact HR
        iexact Hg
      iexact HT
    isplitl [Ho]; · iexact Ho
    isplitl [H0]; · iexact H0
    isplitl [H1]; · iexact H1
    iexists _; iexact H2
  · have hA : ¬ condA (grid0.coords t) := fun h => h0 ((hcondA t).mp h)
    rw [PhiS_pos a0 V c _ _ h0, accAt_later a0 V c t h0]
    by_cases h1 : t.val = 255
    · have hC : condC (grid0.coords t) := (hcondC t).mpr h1
      rw [leavesExact_live (dat0 a0 V Rd c) 2 t (idle2_of a0 t hC), after0_2, accAt_later a0 V c t h0]
      iintro ⟨⟨⟨⟨HS, HR⟩, Hg⟩, HT⟩, Ho, ⟨%d0, H0⟩, ⟨%d1, H1⟩, ⟨%d2, H2⟩⟩
      iapply (runC c Set.univ (grid0.coords t) _ _ _ _ _ _ _ _ _ _ hA hC (iblk0 a0 V c 0 t) (iblk0 a0 V c 1 t) _ _)
      isplitl [H0]; · iexact H0
      isplitl [H1]; · iexact H1
      isplitl [H2]; · iexists _; iexact H2
      isplitl [HS]; · iexact HS
      iintro ⟨H0, H1, H2, HS⟩
      isplitl [HS HR Hg HT]
      · isplitl [HS HR Hg]
        · isplitl [HS HR]
          · isplitl [HS]; · iexact HS
            iexact HR
          iexact Hg
        iexact HT
      isplitl [Ho]; · iexact Ho
      isplitl [H0]; · iexact H0
      isplitl [H1]; · iexact H1
      iexact H2
    · have hC : ¬ condC (grid0.coords t) := fun h => h1 ((hcondC t).mp h)
      rw [Dat.leavesExact_idle (dat0 a0 V Rd c) 2 t (idle2_of_not a0 t hC)
        (by rw [flush2]; exact decide_eq_false h1)]
      iintro ⟨⟨⟨⟨HS, HR⟩, Hg⟩, HT⟩, Ho, ⟨%d0, H0⟩, ⟨%d1, H1⟩, ⟨%d2, H2⟩⟩
      iapply (runB c Set.univ (grid0.coords t) _ _ _ _ _ _ _ _ _ _ hA hC (iblk0 a0 V c 0 t) (iblk0 a0 V c 1 t)
        ((dat0 a0 V Rd c).before 2 t d2) _ _)
      isplitl [H0]; · iexact H0
      isplitl [H1]; · iexact H1
      isplitl [H2]; · iexact H2
      isplitl [HS]; · iexact HS
      iintro ⟨H0, H1, H2, HS⟩
      isplitl [HS HR Hg HT]
      · isplitl [HS HR Hg]
        · isplitl [HS HR]
          · isplitl [HS]; · iexact HS
            iexact HR
          iexact Hg
        iexact HT
      isplitl [Ho]; · iexact Ho
      isplitl [H0]; · iexact H0
      isplitl [H1]; · iexact H1
      iexists _; iexact H2

end Region0

/-- The library's body obligation, at every point. -/
theorem body_obligation0 (c : Dev nD) : BodyObligation (dat0 (F := F) a0 V Rd c) (defs₀ (F := F)) Variants.none () Set.univ := fun t => by
  rw [bigSep_W0, bigSep_W0]
  exact sound_body a0 V Rd c t

/-! ## Into and out of the region -/

/-- What the launch hands the region, beside the table's holder, is the invariant before the first point. -/
theorem hin0 (c : Dev nD) : iprop(Pipeline.ΦA spec0 c ∗ Rd c) ⊢ (dat0 a0 V Rd c).Φ 0 := by
  rw [show (dat0 a0 V Rd c).Φ 0 = iprop(PhiS a0 V c 0 (Nat.zero_le _) ∗ Rd c) from rfl, PhiS_zero a0 V c 0 _ rfl]

/-- After the last point the invariant gives that back: the accumulator's named contents are forgotten. -/
theorem hout0 (c : Dev nD) : (dat0 a0 V Rd c).Φ (Fin.last (cfg0 a0).N) ⊢ iprop(Pipeline.ΦA spec0 c ∗ Rd c) := by
  rw [show (dat0 a0 V Rd c).Φ (Fin.last (cfg0 a0).N)
      = iprop(PhiS a0 V c (Fin.last (cfg0 a0).N).val (Nat.le_of_lt_succ (Fin.last (cfg0 a0).N).isLt) ∗ Rd c) from rfl,
    PhiS_pos a0 V c _ _ (by rw [Fin.val_last]; have : (cfg0 a0).N = 256 := N_0; omega), PhiA0_eq]
  iintro ⟨⟨⟨HS, HR⟩, Hg⟩, HT⟩
  isplitl [HS HR Hg]
  · isplitl [HS HR]
    · isplitl [HS]; · iexists _; iexact HS
      iexact HR
    iexact Hg
  iexact HT

/-! ## What the region leaves in the output array -/

/-- The output array is written back once, at the last point, and that block is the whole 1×1 array: it ends holding
    the accumulator after the last point, copied out. -/
theorem final0 (c : Dev nD) :
    (dat0 a0 V Rd c).arrAt 2 (cfg0 a0).N
      = k0_pay3 (accAt a0 V c 255 (lt_of_lt_of_eq (by decide : 255 < 256) (show (cfg0 a0).N = 256 from N_0).symm)) := by
  have h255 : 255 < (cfg0 a0).N := lt_of_lt_of_eq (by decide : 255 < 256) (show (cfg0 a0).N = 256 from N_0).symm
  refine (dat0 a0 V Rd c).arrAt_eq_of_cover 2 _ (fun t hf => ?_) (fun i => ⟨⟨255, h255⟩, by rw [flush2]; rfl, ?_⟩)
  · have h1 : t.val = 255 := by rw [flush2] at hf; exact of_decide_eq_true hf
    obtain ⟨n, hn⟩ := t
    dsimp only at h1
    subst h1
    show ((cfg0 a0).win 2).cut _ ((dat0 a0 V Rd c).after 2 ⟨255, hn⟩) = _
    rw [after0_2]
    have hz' : (fun a => ((cfg0 a0).win 2).index ⟨255, hn⟩ a * main_v2.ty.shape.size a) = fun _ => 0 :=
      funext fun a => by fin_cases a <;> rfl
    exact (Memref.read_access_unit_zero (Elt F) main_v2 hz' (fun a => by rw [congrFun hz' a]; simp) _).symm
  · have hx : ∀ (j k : S1x1.Idx), j = k := fun j k => funext fun a => Fin.ext (by
      match a with
      | ⟨0, _⟩ =>
        have hj : (j 0 : Nat) < 1 := (j 0).isLt
        have hk : (k 0 : Nat) < 1 := (k 0).isLt
        show (j 0 : Nat) = (k 0 : Nat); omega
      | ⟨1, _⟩ =>
        have hj : (j 1 : Nat) < 1 := (j 1).isLt
        have hk : (k 1 : Nat) < 1 := (k 1).isLt
        show (j 1 : Nat) = (k 1 : Nat); omega)
    let x : (((cfg0 a0).win 2).xblock ((cfg0 a0).grid.coords ⟨255, h255⟩)).Idx := i
    have hm := (((cfg0 a0).win 2).blk ⟨255, h255⟩).view.emb_mem_set x
    have e : (((cfg0 a0).win 2).blk ⟨255, h255⟩).view.emb x = i := hx _ _
    rw [e] at hm
    exact hm

end Data

end Cert.KernelIdeal.Hand

end
-- ==== Proof.Region1.lean ====
/- The second pallas_call, one grid point: what its body leaves in its staging buffers.

   The body reads the whole 256×512 feature array and the 1×1 total, reads (and ignores) the old contents of the
   256×512 result block, and overwrites that block in ONE store with
   log_softmax(features, axis 1) + total — the payload k1_pay1 of the two values read.
   Everything here is stated at an arbitrary entry valuation V of the core's buffers and at any float family. -/
import proofs.«425759_j86672440033822_2_alg».proof.Proof.Gen.KernelIdeal.Launch
import proofs.«425759_j86672440033822_2_alg».proof.Proof.Gen.KernelIdeal.Skeleton
import proofs.«425759_j86672440033822_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at point t, cut out of the window's array as V holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Both offsets of every access of this body are zero. -/
theorem zero2 : (![0, 0] : Fin 2 → Nat) = fun _ => 0 := funext fun a => by fin_cases a <;> rfl

/-- The rectangle of the 256×512 accesses: the whole shape. -/
abbrev rBig : Rect S256x512 := Rect.unit (s := S256x512) ![0, 0] S256x512.size inb_S256x512_S256x512_0_0
/-- The rectangle of the 1×1 access: the whole shape. -/
abbrev rOne : Rect S1x1 := Rect.unit (s := S1x1) ![0, 0] S1x1.size inb_S1x1_S1x1_0_0

/-! ## The result block -/

/-- The result block after the body: the one store laid over whatever was there. -/
def out1_2 (x0 : Vec F S256x512 .f32) (x1 : Vec F S1x1 .f32) : Vec F S256x512 .f32 :=
  View.canon [⟨rBig, k1_pay1 (View.ld x0 rBig) (View.ld x1 rOne)⟩]

/-- A store over the whole shape leaves exactly its value, and a whole-shape load returns the contents. -/
theorem out1_2_eq (x0 : Vec F S256x512 .f32) (x1 : Vec F S1x1 .f32) : out1_2 x0 x1 = k1_pay1 x0 x1 := by
  unfold out1_2
  rw [View.canon_unit_zero zero2, View.ld_unit_zero (S := S256x512) zero2, View.ld_unit_zero (S := S1x1) zero2]

/-- The single store reaches every index of the block. -/
theorem covers1_2 (p : Vec F S256x512 .f32) (y : S256x512.Idx) :
    ∃ pc ∈ ([⟨rBig, p⟩] : List (View.Piece (Elt F) S256x512 .f32)), y ∈ pc.1.set :=
  ⟨_, List.mem_singleton_self _, View.mem_set_unit_zero zero2 inb_S256x512_S256x512_0_0 y⟩

/-! ## The body's triple -/

set_option maxHeartbeats 1000000 in
/-- Run on three whole buffers — the two inputs at known contents, the result block at any contents — the body
    hands them back with the inputs unchanged and the result block at out1_2 of the inputs. -/
theorem sound_kernel1 (c : Dev nD) (E : Set ℕ) (i : grid1.Coords)
    (arg1 : Memref sig .tc .vmem S256x512 .f32) (harg1 : arg1.IsWhole)
    (arg2 : Memref sig .tc .vmem S1x1 .f32) (harg2 : arg2.IsWhole)
    (arg3 : Memref sig .tc .vmem S256x512 .f32) (harg3 : arg3.IsWhole)
    (x0 : Vec F S256x512 .f32) (x1 : Vec F S1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1_2 _)

/-! ## The proof data of the call -/

/-- Arrays as V holds them on entry; after the body the two inputs still hold their blocks and the result block
    holds out1_2 of them; the invariant is the untouched rest of the core; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Both input windows are fetched at the one point, so the body finds each buffer at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body at the grid point -/

/-- The body called on the three staging buffers: the inputs hold their blocks, so the triple above applies;
    the invariant and the debt are carried across unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  have eΦ : (dat1 V c).Φ t.succ = (dat1 V c).Φ t.castSucc := rfl
  have eo : (dat1 V c).owesAt () t.succ = (dat1 V c).owesAt () t.castSucc := rfl
  simp only [before1_0, before1_1]
  rw [eΦ, eo, after1_0, after1_1, after1_2]
  unfold bodyAt1
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

/-! ## From the block to the array

The grid has one point and every index map returns block (0, 0), so a window's block IS its array:
an element at (y₀, y₁) of the block sits at (0·rows + y₀, 0·cols + y₁) of the array. -/

theorem read_blk1_0 (t : Fin cfg1.N) (X : Vec F S256x512 .f32) : ((cfg1.win 0).blk t).view.read (Elt F) X = X := by
  funext y
  show X (((cfg1.win 0).blk t).view.emb y) = X y
  congr 1
  funext a; apply Fin.ext
  match a with
  | ⟨0, _⟩ => show 0 * 256 + 1 * (y 0).val = (y 0).val; omega
  | ⟨1, _⟩ => show 0 * 512 + 1 * (y 1).val = (y 1).val; omega

theorem read_blk1_1 (t : Fin cfg1.N) (X : Vec F S1x1 .f32) : ((cfg1.win 1).blk t).view.read (Elt F) X = X := by
  funext y
  show X (((cfg1.win 1).blk t).view.emb y) = X y
  congr 1
  funext a; apply Fin.ext
  match a with
  | ⟨0, _⟩ => show 0 * 1 + 1 * (y 0).val = (y 0).val; omega
  | ⟨1, _⟩ => show 0 * 1 + 1 * (y 1).val = (y 1).val; omega

theorem read_blk1_2 (t : Fin cfg1.N) (X : Vec F S256x512 .f32) : ((cfg1.win 2).blk t).view.read (Elt F) X = X := by
  funext y
  show X (((cfg1.win 2).blk t).view.emb y) = X y
  congr 1
  funext a; apply Fin.ext
  match a with
  | ⟨0, _⟩ => show 0 * 256 + 1 * (y 0).val = (y 0).val; omega
  | ⟨1, _⟩ => show 0 * 512 + 1 * (y 1).val = (y 1).val; omega

/-- The feature block is the feature array, the total's block is the total. -/
theorem iblk1_0_eq (c : Dev nD) (t : Fin cfg1.N) : iblk1 V c 0 t = V c main_arg0 := by
  unfold iblk1; exact read_blk1_0 t _
theorem iblk1_1_eq (c : Dev nD) (t : Fin cfg1.N) : iblk1 V c 1 t = V c main_v2 := by
  unfold iblk1; exact read_blk1_1 t _

/-- Every index of the result array lies in the block of the one point. -/
theorem mem_blk1_2 (t : Fin cfg1.N) (i : S256x512.Idx) : i ∈ ((cfg1.win 2).blk t).view.set := by
  show i ∈ ((View.whole main_v3).slice (win1_2.rect t)).set
  rw [View.set_slice_whole, Rect.mem_set_unit]
  intro a
  match a with
  | ⟨0, _⟩ => show 0 * 256 ≤ (i 0).val ∧ (i 0).val < 0 * 256 + 256; have h : (i 0).val < 256 := (i 0).isLt; omega
  | ⟨1, _⟩ => show 0 * 512 ≤ (i 1).val ∧ (i 1).val < 0 * 512 + 512; have h : (i 1).val < 512 := (i 1).isLt; omega

/-- After the call the result array holds log_softmax(features) + total, as the payload of the feature array
    and the total found on entry. -/
theorem final1 (c : Dev nD) :
    (dat1 V c).arrAt 2 cfg1.N = (k1_pay1 (V c main_arg0) (V c main_v2) : Vec F S256x512 .f32) := by
  refine (dat1 V c).arrAt_eq_of_cover 2 _ (fun t _ => ?_) (fun i => ⟨t1_0, flush1_2 _, mem_blk1_2 _ i⟩)
  show (cfg1.win 2).cut (grid1.coords t) ((dat1 V c).after 2 t) = _
  rw [after1_2, out1_2_eq, iblk1_0_eq, iblk1_1_eq, read_blk1_2]
  rfl

end Cert.KernelIdeal.Hand

end
-- ==== Proof.Records.lean ====
/- The two pallas_calls as segments of the program's run.

   Between two items of the program a core holds every unscoped buffer whole at a known valuation, its generator
   register at some state, and owes nothing. A call's record says how its windows' arrays are split out of those
   buffers when the call is entered and put back, at what the call's write-backs leave, when it ends; what enters
   the call's invariant (the scoped buffers no window stages, the generator register, and for the first call the
   label table, held whole) and what it gives back. The records are stated for ANY proof data of the two calls with
   the listed properties, so that they do not depend on how a body's triple was obtained. -/
import proofs.«425759_j86672440033822_2_alg».proof.Proof.Gen.KernelIdeal.Launch
import proofs.«425759_j86672440033822_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The tables' contents, the proof data family, the thread state -/

/-- Admissible contents for both calls: the first call's table at `a0`, the second has none. -/
abbrev admF (a0 : (pcfg0 (F := F)).Adm) : (p : Fin 2) → (pcfgs (F := F) p).Adm
  | ⟨0, _⟩ => a0
  | ⟨1, _⟩ => cfg1.toPCfg_adm

/-- The two calls' proof data as one family (a literal match, so that the pinned configuration at a numeral reduces
    to the printed one). -/
def pdatsF (a0 : (pcfg0 (F := F)).Adm)
    (d0 : (c : Dev nD) → Dat τ (Elt F) Unit ℕ (UR sig nD τ) ℕ (cfg0 a0) c)
    (d1 : (c : Dev nD) → Dat τ (Elt F) Unit ℕ (UR sig nD τ) ℕ cfg1 c) :
    (p : Fin 2) → (c : Dev nD) → Dat τ (Elt F) Unit ℕ (UR sig nD τ) ℕ (Pipeline.pin (pcfgs (F := F)) (admF a0) p) c
  | ⟨0, _⟩ => d0
  | ⟨1, _⟩ => d1

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rs (c : Dev nD) : sProp 𝕄 := iprop((∃ r, prngReg c r) ∗ ∃ W, owes (c : Thread nD τ) (0 : CellTallies nD τ sig Unit) W)

/-! ## The second call (the row-wise log-softmax plus the scalar) -/

section Second

variable (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (W2 W3 : Dev nD → Valuation τ sig (Elt F))
  (hA1 : ∀ c w, (d1 c).A w = W2 c (Pipeline.arrRef spec1 w))
  (hq1 : ∀ c w, (d1 c).q w = fullShare)
  (ho1 : ∀ c t, (d1 c).owed t = 0)
  (hr1 : ∀ c t, (d1 c).recorded t = Set.univ)
  (hΦ1 : ∀ c t, (d1 c).Φ t = Pipeline.ΦA spec1 c)
  (hb1 : ∀ c, BodyObligation (d1 c) (defs₀ (F := F)) Variants.none () Set.univ)
  (hF1 : ∀ c w, (d1 c).arrAt w cfg1.N = W3 c (Pipeline.arrRef spec1 w))
  (hrest1 : ∀ c (b : Ref sig .tc), b ∉ Finset.univ.image (Pipeline.arrRef spec1) → W3 c b = W2 c b)

set_option backward.isDefEq.respectTransparency.types false in
/-- The second call over the thread state: entered from every unscoped buffer at `W2`, left at `W3`. -/
def reg1 : Pipeline.RegionSeg (pcfgs (F := F)) (admF a0) (pdatsF a0 d0 d1) () defs₀ 𝒱₀ Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ Lz lvz 1 fun c t => ho1 c t
  pre c := iprop(StableHlo.held (c : Thread nD τ) (Pipeline.ucRefs τ sig) (W2 c) ∗ Rs c)
  post c := iprop(StableHlo.held (c : Thread nD τ) (Pipeline.ucRefs τ sig) (W3 c) ∗ Rs c)
  X c := iprop(∃ r, prngReg c r)
  Y c := iprop(∃ r, prngReg c r)
  Z c := Pipeline.unscopedRest (Ix := Unit) (Name := ℕ) (U := UR sig nD τ) (Lvl := ℕ) spec1 c (fun b => W2 c b)
  hentry c := by
    rw [Pipeline.ownSems0_none]
    unfold Pipeline.Dat.owesAt Pipeline.owesWithin
    rw [show (pdatsF a0 d0 d1 1 c).owed 0 = 0 from ho1 c 0]
    have hsplit := Pipeline.arrays_of_unscopedBufs (p := 1) (pcfgs (F := F)) (admF a0) (pdatsF a0 d0 d1) (launch1 (F := F)).win (launch1 (F := F)).arr_whole c
      ((pdatsF a0 d0 d1 1 c).share_full fun w => hq1 c w) (fun b => W2 c b) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hr1 c 0) ▸ Set.mem_univ _)
      iexact HO
    isplitl [Hp]; · iexact Hp
    iexact Hrest
  hin c := by
    rw [show (pdatsF a0 d0 d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (pdatsF a0 d0 d1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    unfold Pipeline.Dat.owesAt Pipeline.owesWithin
    rw [show (pdatsF a0 d0 d1 1 c).owed (Fin.last (Pipeline.pin (pcfgs (F := F)) (admF a0) 1).N) = 0 from ho1 c _]
    have hjoin := Pipeline.unscopedBufs_of_arrays (p := 1) (pcfgs (F := F)) (admF a0) (Ix := Unit) (Name := ℕ) (U := UR sig nD τ) (Lvl := ℕ)
      (launch1 (F := F)).win (launch1 (F := F)).arr_whole c (pdatsF a0 d0 d1) ((pdatsF a0 d0 d1 1 c).share_full fun w => hq1 c w)
      (fun b => W2 c b) (fun b => W3 c b) ((pdatsF a0 d0 d1 1 c).arrAt · cfg1.N) (fun w => hF1 c w) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Second

/-! ## The first call (the 256 squared distances, summed) -/

section First

variable (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (W1 W2 : Dev nD → Valuation τ sig (Elt F))

/-- The label table on core `c`, held whole at the contents the pipeline runs at. -/
abbrev tblHeld (c : Dev nD) : sProp 𝕄 :=
  Pipeline.prefHeld (Ix := Unit) (Name := ℕ) (U := UR sig nD τ) (Lvl := ℕ) pre0 c (fun _ => fullShare) a0.1

variable
  (hT : ∀ c, (fun k => W1 c (pre0.ref k)) = a0.1)
  (hA0 : ∀ c w, (d0 c).A w = W1 c (Pipeline.arrRef spec0 w))
  (hq0 : ∀ c w, (d0 c).q w = fullShare)
  (ho0 : ∀ c t, (d0 c).owed t = 0)
  (hr0 : ∀ c t, (d0 c).recorded t = Set.univ)
  (hb0 : ∀ c, BodyObligation (d0 c) (defs₀ (F := F)) Variants.none () Set.univ)
  (hin0 : ∀ c, iprop(Pipeline.ΦA spec0 c ∗ tblHeld a0 c) ⊢ (d0 c).Φ 0)
  (hout0 : ∀ c, (d0 c).Φ (Fin.last (cfg0 a0).N) ⊢ iprop(Pipeline.ΦA spec0 c ∗ tblHeld a0 c))
  (hF0 : ∀ c w, (d0 c).arrAt w (cfg0 a0).N = W2 c (Pipeline.arrRef spec0 w))
  (hrest0 : ∀ c (b : Ref sig .tc), b ∉ Finset.univ.image (Pipeline.arrRef spec0) → W2 c b = W1 c b)

set_option backward.isDefEq.respectTransparency.types false in
/-- The first call over the thread state: entered from every unscoped buffer at `W1`, left at `W2`. The label table is
    one of the unscoped buffers that are no window's array: it is split off at the entry, rides inside the call's
    invariant, and is put back beside the others at the exit. -/
def reg0 : Pipeline.RegionSeg (pcfgs (F := F)) (admF a0) (pdatsF a0 d0 d1) () defs₀ 𝒱₀ Lz lvz 0 where
  win := (launch0 (F := F)).win.to₀
  block_pos := (launch0 (F := F)).block_pos
  stage_whole := (launch0 (F := F)).stage_whole
  K := PEmpty
  osem k := k.elim
  ho := Pipeline.OwnSemFacts.none _
  hbody c := (hb0 c).loose
  hwaits := Pipeline.hwaits_of_owed_zero _ _ _ _ Lz lvz 0 fun c t => ho0 c t
  pre c := iprop(StableHlo.held (c : Thread nD τ) (Pipeline.ucRefs τ sig) (W1 c) ∗ Rs c)
  post c := iprop(StableHlo.held (c : Thread nD τ) (Pipeline.ucRefs τ sig) (W2 c) ∗ Rs c)
  X c := iprop(∃ r, prngReg c r)
  Y c := iprop((∃ r, prngReg c r) ∗ tblHeld a0 c)
  Z c := Pipeline.unscopedRestP (Ix := Unit) (Name := ℕ) (U := UR sig nD τ) (Lvl := ℕ) (pcfgs (F := F) 0).pre (pcfgs (F := F) 0).spec c (fun b => W1 c b)
  hentry c := by
    rw [Pipeline.ownSems0_none]
    unfold Pipeline.Dat.owesAt Pipeline.owesWithin
    rw [show (pdatsF a0 d0 d1 0 c).owed 0 = 0 from ho0 c 0]
    have hsplit := Pipeline.arrays_of_unscopedBufs (p := 0) (pcfgs (F := F)) (admF a0) (pdatsF a0 d0 d1) (launch0 (F := F)).win (launch0 (F := F)).arr_whole c
      ((pdatsF a0 d0 d1 0 c).share_full fun w => hq0 c w) (fun b => W1 c b) fun w => hA0 c w
    rw [Pipeline.unscopedBufs_held, Pipeline.unscopedRest_split (launch0 (F := F)).pre c (fun b => W1 c b),
      show (fun k => W1 c ((pcfgs (F := F) 0).pre.ref k)) = (admF a0 0).1 from hT c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · icases HO with ⟨%W, HO⟩; iexists W; isplitr; · ipureintro; exact fun _ _ => Or.inl ((hr0 c 0) ▸ Set.mem_univ _)
      iexact HO
    isplitl [Hp]; · iexact Hp
    iexact Hrest
  hin c := by
    refine .trans ?_ (hin0 c)
    unfold Pipeline.ΦA
    iintro ⟨Hp, Ht, Hr⟩
    isplitl [Hr Hp]
    · isplitl [Hr]; · iexact Hr
      iexact Hp
    iexact Ht
  hout c := by
    rw [Pipeline.ownSems0_none]
    refine (hout0 c).trans ?_
    unfold Pipeline.ΦA
    iintro ⟨⟨Hr, Hp⟩, Ht⟩
    isplitl [Hp Ht]
    · isplitl [Hp]; · iexact Hp
      iexact Ht
    isplitr; · iempintro
    iexact Hr
  hexit c := by
    unfold Pipeline.Dat.owesAt Pipeline.owesWithin
    rw [show (pdatsF a0 d0 d1 0 c).owed (Fin.last (Pipeline.pin (pcfgs (F := F)) (admF a0) 0).N) = 0 from ho0 c _]
    have hjoin := Pipeline.unscopedBufs_of_arrays (p := 0) (pcfgs (F := F)) (admF a0) (Ix := Unit) (Name := ℕ) (U := UR sig nD τ) (Lvl := ℕ)
      (launch0 (F := F)).win (launch0 (F := F)).arr_whole c (pdatsF a0 d0 d1) ((pdatsF a0 d0 d1 0 c).share_full fun w => hq0 c w)
      (fun b => W1 c b) (fun b => W2 c b) ((pdatsF a0 d0 d1 0 c).arrAt · (cfg0 a0).N) (fun w => hF0 c w) (hrest0 c)
    rw [Pipeline.unscopedBufs_held, Pipeline.unscopedRest_split (launch0 (F := F)).pre c (fun b => W1 c b),
      show (fun k => W1 c ((pcfgs (F := F) 0).pre.ref k)) = (admF a0 0).1 from hT c] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    icases HO with ⟨%W, -, HO⟩; iexists W; iexact HO

end First

end Cert.KernelIdeal.Hand

end
-- ==== Proof.Launched.lean ====
/- The program's run from the two calls' records.

   With nothing owed at launch and no ghost state beyond the pipeline library's, every core starts holding its
   generator register and owing nothing, which is the state the records thread from item to item. Given proof data
   for the two calls with the properties the records list — the first call's stated from the buffers after the two
   host reshapes, the second's from those with the scalar the first call left — the conditional frame yields, at any
   float family: the run terminates and the three arguments end unchanged. -/
import proofs.«425759_j86672440033822_2_alg».proof.Proof.Records

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the launch deals -/

/-- The pipeline library's launch element at the two calls' cells, the tables pinned at `a`. -/
abbrev u0 (a : (p : Fin 2) → (pcfgs (F := F) p).Adm) :=
  initOf (Pipeline.cells (Pipeline.pin (pcfgs (F := F)) a) (cellOf_inj a)) (Pipeline.launchToks (Pipeline.pin (pcfgs (F := F)) a) (cellOf_inj a))

/-- The launch element is the library's own, and no core gets anything besides. -/
theorem hu0 (a : (p : Fin 2) → (pcfgs (F := F) p).Adm) :
    (ownU (u0 a) : sProp 𝕄) ⊢ |={Set.univ}=> iprop(BI.own (emb₁ (u0 a)) ∗ bigSep Finset.univ (fun _ : Dev nD => (BI.emp : sProp 𝕄))) := by
  iintro Hu; imodintro
  isplitl [Hu]
  · iapply (show (ownU (u0 a) : sProp 𝕄) ⊢ BI.own (emb₁ (u0 a)) from .rfl)
    iexact Hu
  iapply (show (BI.emp : sProp 𝕄) ⊢ bigSep Finset.univ (fun _ : Dev nD => (BI.emp : sProp 𝕄)) from by rw [BI.bigSep_emp_const])
  iempintro

/-- Every core starts with its generator register at its launch state and owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rs (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- At the end the core owes nothing. -/
theorem hE2 (c : Dev nD) : Rs (F := F) c ⊢ (iprop(∃ W, owes (c : Thread nD τ) (0 : CellTallies nD τ sig Unit) W) : sProp 𝕄) := by
  iintro ⟨-, HO⟩; iexact HO

/-! ## The run -/

section Run

variable (m : (ℓ : Loc nD τ sig) → Buf (Elt F) ℓ) (ρ : Dev nD → PrngReg) (outs : Outs (F := F))
  (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (hT : ∀ c, (fun k => V1 m c (pre0.ref k)) = a0.1)
  (hA0 : ∀ c w, (d0 c).A w = V1 m c (Pipeline.arrRef spec0 w))
  (hq0 : ∀ c w, (d0 c).q w = fullShare)
  (ho0 : ∀ c t, (d0 c).owed t = 0)
  (hr0 : ∀ c t, (d0 c).recorded t = Set.univ)
  (hb0 : ∀ c, BodyObligation (d0 c) (defs₀ (F := F)) Variants.none () Set.univ)
  (hin0 : ∀ c, iprop(Pipeline.ΦA spec0 c ∗ tblHeld a0 c) ⊢ (d0 c).Φ 0)
  (hout0 : ∀ c, (d0 c).Φ (Fin.last (cfg0 a0).N) ⊢ iprop(Pipeline.ΦA spec0 c ∗ tblHeld a0 c))
  (hF0 : ∀ c w, (d0 c).arrAt w (cfg0 a0).N = V2 m outs c (Pipeline.arrRef spec0 w))
  (hrest0 : ∀ c (b : Ref sig .tc), b ∉ Finset.univ.image (Pipeline.arrRef spec0) → V2 m outs c b = V1 m c b)
  (hA1 : ∀ c w, (d1 c).A w = V2 m outs c (Pipeline.arrRef spec1 w))
  (hq1 : ∀ c w, (d1 c).q w = fullShare)
  (ho1 : ∀ c t, (d1 c).owed t = 0)
  (hr1 : ∀ c t, (d1 c).recorded t = Set.univ)
  (hΦ1 : ∀ c t, (d1 c).Φ t = Pipeline.ΦA spec1 c)
  (hb1 : ∀ c, BodyObligation (d1 c) (defs₀ (F := F)) Variants.none () Set.univ)
  (hF1 : ∀ c w, (d1 c).arrAt w cfg1.N = V3 m outs c (Pipeline.arrRef spec1 w))
  (hrest1 : ∀ c (b : Ref sig .tc), b ∉ Finset.univ.image (Pipeline.arrRef spec1) → V3 m outs c b = V2 m outs c b)

include hT hA0 hq0 ho0 hr0 hb0 hin0 hout0 hF0 hrest0 hA1 hq1 ho1 hr1 hΦ1 hb1 hF1 hrest1

/-- The frame: the run terminates and the three arguments end as launched. -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ Lz lvz (fun _ _ => rfl) ρ outs (admF a0) (pdatsF a0 d0 d1) 0 (fun _ => BI.emp) (u0 (admF a0)) (hu0 (admF a0))
    (fun _ c => Rs c) (hE0 ρ) hE2
    (reg0 a0 d0 d1 (V1 m) (V2 m outs) hT hA0 hq0 ho0 hr0 hb0 hin0 hout0 hF0 hrest0) (fun _ => .rfl) (fun _ => .rfl)
    (reg1 a0 d0 d1 (V2 m outs) (V3 m outs) hA1 hq1 ho1 hr1 hΦ1 hb1 hF1 hrest1) (fun _ => .rfl) (fun _ => .rfl)

end Run

end Cert.KernelIdeal.Hand

end
-- ==== Proof.KernelFrame.lean ====
/- The two calls' proof data at the program's own buffers, and the frame they give.

   The label table is read off the launch memory; `Ok` is the pipeline's side condition of it (every row the table
   selects lies in the centres' array). The first call is entered from the buffers after the two host reshapes; the
   second from those with the first call's scalar in its output buffer; what each call's write-back leaves in its
   output is what the run's unknowns are set to. -/
import proofs.«425759_j86672440033822_2_alg».proof.Proof.Region0
import proofs.«425759_j86672440033822_2_alg».proof.Proof.Region1
import proofs.«425759_j86672440033822_2_alg».proof.Proof.Launched

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The label table -/

/-- The label table as launched (the program runs on one device). -/
def tbl : pre0.Contents (Elt F) := fun k => m (((0 : Dev nD) : Thread nD τ).loc (pre0.ref k))

/-- Neither host reshape writes the table: the first call finds it as launched. -/
theorem V1_tbl (c : Dev nD) : (fun k => V1 m c (pre0.ref k)) = tbl m := by
  obtain rfl : c = 0 := Subsingleton.elim _ _
  funext k
  match k with
  | ⟨0, _⟩ => exact (V1_of m 0 main_arg2 (by decide)).trans rfl

/-- Every row the table selects lies in the centres' array. -/
abbrev Ok : Prop := ok0 (F := F) (tbl m)
/-- The table as admissible contents. -/
abbrev adm0 (hO : Ok m) : (pcfg0 (F := F)).Adm := ⟨tbl m, hO⟩

/-! ## The proof data and what the calls leave -/

section Data

variable (hO : Ok m)

/-- The first call's data: entered from the buffers after the host reshapes, the table riding whole in its invariant. -/
abbrev d0 (c : Dev nD) : Dat τ (Elt F) Unit ℕ (UR sig nD τ) ℕ (cfg0 (adm0 m hO)) c :=
  dat0 (adm0 m hO) (fun c b => V1 m c b) (tblHeld (adm0 m hO)) c

/-- What the first call leaves in its one-cell output. -/
abbrev o2 (c : Dev nD) : Buf (Elt F) ((c : Thread nD τ).loc main_v2) := (d0 m hO c).arrAt 2 (cfg0 (adm0 m hO)).N

/-- The buffers between the two calls. -/
abbrev Wb (c : Dev nD) : Valuation τ sig (Elt F) := Function.update (V1 m c) main_v2 (o2 m hO c)

/-- The second call's data, entered from those. -/
abbrev d1 (c : Dev nD) : Dat τ (Elt F) Unit ℕ (UR sig nD τ) ℕ cfg1 c := dat1 (fun c b => Wb m hO c b) c

/-- What the second call leaves in the result buffer. -/
abbrev o3 (c : Dev nD) : Buf (Elt F) ((c : Thread nD τ).loc main_v3) := (d1 m hO c).arrAt 2 cfg1.N

/-- The run's unknowns: what each call leaves in the buffer it may change. -/
def outs : Outs (F := F) := fun _ r c =>
  if h2 : r = main_v2 then h2 ▸ o2 m hO c else if h3 : r = main_v3 then h3 ▸ o3 m hO c else m ((c : Thread nD τ).loc r)

theorem outs_v2 (c : Dev nD) : outs m hO 2 main_v2 c = o2 m hO c := by
  unfold outs; rw [dif_pos rfl]
theorem outs_v3 (c : Dev nD) : outs m hO 3 main_v3 c = o3 m hO c := by
  unfold outs; rw [dif_neg (by decide), dif_pos rfl]

theorem V2_eq (c : Dev nD) : V2 m (outs m hO) c = Wb m hO c := by
  unfold V2 Wb; rw [outs_v2]

/-! ## The hypotheses of the launch -/

theorem hF0 (c : Dev nD) (w : Fin (cfg0 (adm0 m hO)).W) :
    (d0 m hO c).arrAt w (cfg0 (adm0 m hO)).N = V2 m (outs m hO) c (Pipeline.arrRef spec0 w) :=
  match w with
  | ⟨0, _⟩ => ((d0 m hO c).arrAt_in 0 rfl _).trans ((A_eq0 _ _ _ c 0).trans (V2_of m (outs m hO) c main_v0 (by decide)).symm)
  | ⟨1, _⟩ => ((d0 m hO c).arrAt_in 1 rfl _).trans ((A_eq0 _ _ _ c 1).trans (V2_of m (outs m hO) c main_v1 (by decide)).symm)
  | ⟨2, _⟩ => by
      show o2 m hO c = V2 m (outs m hO) c main_v2
      rw [V2_eq]; unfold Wb; rw [Function.update_self]

theorem hrest0 (c : Dev nD) (b : Ref sig .tc) (hb : b ∉ Finset.univ.image (Pipeline.arrRef spec0)) :
    V2 m (outs m hO) c b = V1 m c b :=
  V2_of m (outs m hO) c b fun h => hb (by
    rw [List.mem_singleton] at h; subst h
    exact Finset.mem_image.mpr ⟨2, Finset.mem_univ _, rfl⟩)

theorem hA1 (c : Dev nD) (w : Fin cfg1.W) : (d1 m hO c).A w = V2 m (outs m hO) c (Pipeline.arrRef spec1 w) := by
  rw [V2_eq]; exact A_eq1 _ c w

theorem hF1 (c : Dev nD) (w : Fin cfg1.W) :
    (d1 m hO c).arrAt w cfg1.N = V3 m (outs m hO) c (Pipeline.arrRef spec1 w) :=
  match w with
  | ⟨0, _⟩ => ((d1 m hO c).arrAt_in 0 rfl _).trans ((hA1 m hO c 0).trans (V3_of m (outs m hO) c main_arg0 (by decide)).symm)
  | ⟨1, _⟩ => ((d1 m hO c).arrAt_in 1 rfl _).trans ((hA1 m hO c 1).trans (V3_of m (outs m hO) c main_v2 (by decide)).symm)
  | ⟨2, _⟩ => by
      show o3 m hO c = V3 m (outs m hO) c main_v3
      unfold V3; rw [Function.update_self, outs_v3]

theorem hrest1 (c : Dev nD) (b : Ref sig .tc) (hb : b ∉ Finset.univ.image (Pipeline.arrRef spec1)) :
    V3 m (outs m hO) c b = V2 m (outs m hO) c b :=
  V3_of m (outs m hO) c b fun h => hb (by
    rw [List.mem_singleton] at h; subst h
    exact Finset.mem_image.mpr ⟨2, Finset.mem_univ _, rfl⟩)

end Data

/-! ## The frame and the run -/

variable (ρ : Dev nD → PrngReg)

/-- THE FRAME, at any float family, for a label table inside the centres' array: the run terminates and the three
    arguments end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_gen m ρ (outs m hO) (adm0 m hO) (d0 m hO) (d1 m hO)
    (V1_tbl m) (fun c w => A_eq0 _ _ _ c w) (fun _ _ => rfl) (fun _ _ => rfl) (fun _ _ => rfl)
    (fun c => body_obligation0 _ _ _ c) (fun c => hin0 _ _ _ c) (fun c => hout0 _ _ _ c) (hF0 m hO) (hrest0 m hO)
    (hA1 m hO) (fun _ _ => rfl) (fun _ _ => rfl) (fun _ _ => rfl) (fun _ _ => rfl)
    (fun c => body_obligation1 _ c) (hF1 m hO) (hrest1 m hO)

end Cert.KernelIdeal.Hand

end
-- ==== Proof.LaunchedValue.lean ====
/- The program's run with its result: as the frame, and the result buffer ends at what the second call's
   write-back leaves in it (the conditional frame stated with that buffer in its post). -/
import proofs.«425759_j86672440033822_2_alg».proof.Proof.Launched
import proofs.«425759_j86672440033822_2_alg».proof.Proof.RegionsValue

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The run -/

section Run

variable (m : (ℓ : Loc nD τ sig) → Buf (Elt F) ℓ) (ρ : Dev nD → PrngReg) (outs : Outs (F := F))
  (a0 : (pcfg0 (F := F)).Adm)
  (d0 : (c : Dev nD) → Dat τ (Elt F) Unit ℕ (UR sig nD τ) ℕ (cfg0 a0) c)
  (d1 : (c : Dev nD) → Dat τ (Elt F) Unit ℕ (UR sig nD τ) ℕ cfg1 c)
  (hT : ∀ c, (fun k => V1 m c (pre0.ref k)) = a0.1)
  (hA0 : ∀ c w, (d0 c).A w = V1 m c (Pipeline.arrRef spec0 w))
  (hq0 : ∀ c w, (d0 c).q w = fullShare)
  (ho0 : ∀ c t, (d0 c).owed t = 0)
  (hr0 : ∀ c t, (d0 c).recorded t = Set.univ)
  (hb0 : ∀ c, BodyObligation (d0 c) (defs₀ (F := F)) Variants.none () Set.univ)
  (hin0 : ∀ c, iprop(Pipeline.ΦA spec0 c ∗ tblHeld a0 c) ⊢ (d0 c).Φ 0)
  (hout0 : ∀ c, (d0 c).Φ (Fin.last (cfg0 a0).N) ⊢ iprop(Pipeline.ΦA spec0 c ∗ tblHeld a0 c))
  (hF0 : ∀ c w, (d0 c).arrAt w (cfg0 a0).N = V2 m outs c (Pipeline.arrRef spec0 w))
  (hrest0 : ∀ c (b : Ref sig .tc), b ∉ Finset.univ.image (Pipeline.arrRef spec0) → V2 m outs c b = V1 m c b)
  (hA1 : ∀ c w, (d1 c).A w = V2 m outs c (Pipeline.arrRef spec1 w))
  (hq1 : ∀ c w, (d1 c).q w = fullShare)
  (ho1 : ∀ c t, (d1 c).owed t = 0)
  (hr1 : ∀ c t, (d1 c).recorded t = Set.univ)
  (hΦ1 : ∀ c t, (d1 c).Φ t = Pipeline.ΦA spec1 c)
  (hb1 : ∀ c, BodyObligation (d1 c) (defs₀ (F := F)) Variants.none () Set.univ)
  (hF1 : ∀ c w, (d1 c).arrAt w cfg1.N = V3 m outs c (Pipeline.arrRef spec1 w))
  (hrest1 : ∀ c (b : Ref sig .tc), b ∉ Finset.univ.image (Pipeline.arrRef spec1) → V3 m outs c b = V2 m outs c b)

include hT hA0 hq0 ho0 hr0 hb0 hin0 hout0 hF0 hrest0 hA1 hq1 ho1 hr1 hΦ1 hb1 hF1 hrest1

/-- The run with its result: as the frame, and the result buffer ends at what the second call leaves in it. -/
theorem run_gen : θ_run defs (onTc (τ := τ) (main (F := F))) ⟨m, fun _ => 0, ρ⟩ (fun r => ∀ c : Dev nD,
      r.2.mem ((c.tc : Thread nD τ).loc main_v3) = outs 3 main_v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond_v m emb₁ () 𝒱₀ Lz lvz (fun _ _ => rfl) ρ outs (admF a0) (pdatsF a0 d0 d1) 0 (fun _ => BI.emp) (u0 (admF a0)) (hu0 (admF a0))
    (fun _ c => Rs c) (hE0 ρ) hE2
    (reg0 a0 d0 d1 (V1 m) (V2 m outs) hT hA0 hq0 ho0 hr0 hb0 hin0 hout0 hF0 hrest0) (fun _ => .rfl) (fun _ => .rfl)
    (reg1 a0 d0 d1 (V2 m outs) (V3 m outs) hA1 hq1 ho1 hr1 hΦ1 hb1 hF1 hrest1) (fun _ => .rfl) (fun _ => .rfl)

end Run

end Cert.KernelIdeal.Hand

end
-- ==== Proof.KernelTerm.lean ====
/- The kernel's result as ONE function of its three argument arrays, over the payloads of the two bodies.

   Row `b` of the features and row `lab b` of the class centres are the two 512-vectors the first body sees at
   grid point `b`; it adds `(Σ f² + Σ c²) − 2·Σ f·c` to a one-cell accumulator that starts at zero, and hands the
   accumulator out after the last row. The second body adds that scalar to the row-wise log-softmax of the features. -/
import proofs.«425759_j86672440033822_2_alg».proof.Proof.Gen.KernelIdeal.Skeleton
import Idealize.ShloMosaic.Lib.ValueIdx

noncomputable section

namespace Cert.KernelIdeal.Term

open Idealize.ShloMosaic Cert.KernelIdeal Cert.KernelIdeal.Gen

variable {F : FTy → Type} [FloatOps F]

/-- Row `b` of a 256×512 array, as the 1×1×512 block the first body loads. -/
def fRow (f : Vec F S256x512 .f32) (b : Fin 256) : Vec F S1x1x512 .f32 :=
  fun y => f (ValueIdx.ix2 b (y 2))

/-- Row `r` of the 100000×512 table, as the 1×1×512 block the first body loads. -/
def cRow (cen : Vec F S100000x512 .f32) (r : Fin 100000) : Vec F S1x1x512 .f32 :=
  fun y => cen (ValueIdx.ix2 r (y 2))

/-- The row of the table that label word `b` selects, the labels being in range. -/
def sel (lab : IVec S256 32) (hlab : ∀ b : Fin 256, (lab (ValueIdx.ix1 b)).toNat < 100000) (b : Fin 256) : Fin 100000 :=
  ⟨(lab (ValueIdx.ix1 b)).toNat, hlab b⟩

/-- The accumulator after rows `0 … n`: the reset value, then one update per row. -/
def accUpTo (f : Vec F S256x512 .f32) (cen : Vec F S100000x512 .f32) (lab : IVec S256 32)
    (hlab : ∀ b : Fin 256, (lab (ValueIdx.ix1 b)).toNat < 100000) : (n : ℕ) → n < 256 → Vec F S1x1x1 .f32
  | 0, h => k0_pay2 (fRow f ⟨0, h⟩) (cRow cen (sel lab hlab ⟨0, h⟩)) (k0_pay1 (F := F))
  | n + 1, h => k0_pay2 (fRow f ⟨n + 1, h⟩) (cRow cen (sel lab hlab ⟨n + 1, h⟩)) (accUpTo f cen lab hlab n (Nat.lt_of_succ_lt h))

/-- The scalar the first call hands to the second. -/
def total (f : Vec F S256x512 .f32) (cen : Vec F S100000x512 .f32) (lab : IVec S256 32)
    (hlab : ∀ b : Fin 256, (lab (ValueIdx.ix1 b)).toNat < 100000) : Vec F S1x1 .f32 :=
  k0_pay3 (accUpTo f cen lab hlab 255 (by decide))

/-- The kernel's result. -/
def result (f : Vec F S256x512 .f32) (cen : Vec F S100000x512 .f32) (lab : IVec S256 32)
    (hlab : ∀ b : Fin 256, (lab (ValueIdx.ix1 b)).toNat < 100000) : Vec F S256x512 .f32 :=
  k1_pay1 f (total f cen lab hlab)

end Cert.KernelIdeal.Term

end
-- ==== Proof.OkOfPre.lean ====
/- From the printed precondition to the range of the labels, and from that range to the side condition the
   first call's pipeline puts on its prefetched table.

   The precondition is a scalar conjunction of three "for all" tests. Its third conjunct says of every label word
   that it is at least 0 and below 100000 when read as a signed integer; such a word is below 100000 read unsigned.
   The gather window of the first call fetches, at grid point b, the block whose leading block index is the label
   word b (unsigned) and whose other two block indices are 0; with blocks of extent 1 × 1 × 512 in an array of
   extent 100000 × 1 × 512 the block lies inside the array exactly when that word is below 100000, and a 32-bit
   element type moves whole words. -/
import proofs.«425759_j86672440033822_2_alg».proof.Pre_finite_inputs
import proofs.«425759_j86672440033822_2_alg».proof.Proof.Gen.Pre_finite_inputs
import proofs.«425759_j86672440033822_2_alg».proof.KernelIdeal
import proofs.«425759_j86672440033822_2_alg».proof.Proof.Gen.KernelIdeal
import Idealize.ShloMosaic.Lib.ReduceAll
import Idealize.ShloMosaic.Lib.StableHlo.Predicate
import Idealize.ShloMosaic.Lib.ValueIdx

noncomputable section

namespace Cert.Hand.OkOfPre

open Idealize.ShloMosaic

variable {F : FTy → Type} [FloatOps F]

/-! ## Words -/

/-- A 32-bit word that is at least 0 and below 100000 as a signed integer is below 100000 as a natural number:
    a non-negative signed reading is the unsigned one. -/
theorem toNat_lt_of_signed (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hw := w.isLt
  rw [BitVec.toInt_eq_toNat_cond] at h0 h1
  split at h0 <;> omega

/-! ## The precondition, decoded -/

/-- The scalar shape has one index. -/
instance : Subsingleton Cert.Pre_finite_inputs.S_.Idx := ⟨fun a b => funext fun d => d.elim0⟩

/-- Under the printed precondition every label is a row number of the 100000-row table. -/
theorem labels_in_range [Cert.Pre_finite_inputs.Facts] (x0 : FVec F Cert.Pre_finite_inputs.S256x512 .f32)
    (x1 : FVec F Cert.Pre_finite_inputs.S100000x512 .f32) (lab : IVec Cert.Pre_finite_inputs.S256 32)
    (h : Cert.Pre_finite_inputs.fn (F := F) x0 x1 lab = fun _ => 1#1) :
    ∀ b : Fin 256, (lab (ValueIdx.ix1 b)).toNat < 100000 := by
  intro b
  have e := congrFun h ValueIdx.ix0
  dsimp only [Cert.Pre_finite_inputs.fn] at e
  -- the outer conjunction: (finite features ∧ finite centres) ∧ labels in range
  obtain ⟨-, e3⟩ := IntOp.andi_eq_one.1 e
  -- "for all b": the conjunction at label b
  have eb := Host.reduce_andi_all _ _ _ _ _ e3 (ValueIdx.ix1 b)
  obtain ⟨g0, g1⟩ := IntOp.andi_eq_one.1 eb
  exact toNat_lt_of_signed _ g0 g1

/-! ## The prefetched table -/

section Table

open Cert.KernelIdeal

variable [Cert.KernelIdeal.Facts₀]

/-- The block index the gather window's index map computes at grid point i: the label word at position i 0 of the
    table, read unsigned, then 0 and 0. The index map loads the table through the one-element rectangle at
    offset i 0 (a grid coordinate is below 256, so it survives the round trip through a 32-bit word), and that
    rectangle's one element sits at position i 0. -/
theorem transform_1_eq (pf : pre0.Contents (Elt F)) (i : grid0.Coords) :
    cc0_transform_1 Facts₀.k0_off1_inb Facts₀.numel1_S1 pf i
      = ![(pf 0 (ValueIdx.ix1 (n := 256) (i 0))).toNat, 0, 0] := by
  have hi : (i 0).val < 256 := (i 0).isLt
  have hidx : (Rect.unit (s := S256) ![(Scalar.indexCast (BitVec.ofNat 32 (i 0).val)).toNat] S1.size (Facts₀.k0_off1_inb i)).emb
      (Shape.Idx.first (Facts₀.numel1_S1.symm ▸ Nat.one_pos)) = ValueIdx.ix1 (n := 256) (i 0) := by
    funext a
    match a with
    | ⟨0, _⟩ =>
      apply Fin.ext
      show (BitVec.ofNat 32 (i 0).val).toNat + 1 * 0 = (i 0).val
      rw [BitVec.toNat_ofNat, Nat.mod_eq_of_lt (by omega)]
      omega
  unfold cc0_transform_1
  exact congrArg (fun j : S256.Idx => ![(pf 0 j).toNat, 0, 0]) hidx

/-- The side condition, from a bound on the leading block index at every grid point. -/
theorem ok0_of_lt (pf : pre0.Contents (Elt F))
    (h : ∀ i : grid0.Coords, cc0_transform_1 Facts₀.k0_off1_inb Facts₀.numel1_S1 pf i 0 < 100000) : ok0 (F := F) pf := by
  intro i
  have h0 := h i
  have h1 : cc0_transform_1 Facts₀.k0_off1_inb Facts₀.numel1_S1 pf i 1 = 0 := by rw [transform_1_eq]; rfl
  have h2 : cc0_transform_1 Facts₀.k0_off1_inb Facts₀.numel1_S1 pf i 2 = 0 := by rw [transform_1_eq]; rfl
  refine ⟨fun a => ?_, Or.inl rfl⟩
  match a with
  | ⟨0, _⟩ =>
    show (cc0_transform_1 Facts₀.k0_off1_inb Facts₀.numel1_S1 pf i 0 + 1) * 1 ≤ 100000
    omega
  | ⟨1, _⟩ =>
    show (cc0_transform_1 Facts₀.k0_off1_inb Facts₀.numel1_S1 pf i 1 + 1) * 1 ≤ 1
    omega
  | ⟨2, _⟩ =>
    show (cc0_transform_1 Facts₀.k0_off1_inb Facts₀.numel1_S1 pf i 2 + 1) * 512 ≤ 512
    omega

/-- The side condition, from the range of the table's words: every fetched block of the 100000 × 1 × 512 array
    starts at a row the table names, and those are rows of the array. -/
theorem ok0_of_range (pf : pre0.Contents (Elt F))
    (h : ∀ b : Fin 256, (pf 0 (ValueIdx.ix1 (n := 256) b)).toNat < 100000) : ok0 (F := F) pf := by
  refine ok0_of_lt pf fun i => ?_
  rw [transform_1_eq]
  exact h (i 0)

end Table

end Cert.Hand.OkOfPre

end
-- ==== Proof.Blocks0.lean ====
/- What the first call's two input windows hold at grid point t, as rows of the argument arrays.

   The host reshapes the 256×512 features to 256×1×512 and the 100000×512 centres to 100000×1×512 by putting a
   unit axis in the middle: entry (r, 0, d) of the reshaped array is entry (r, d) of the argument.
   Blocks have extent 1×1×512, so the element (y₀, y₁, y₂) of the block with block index (q₀, q₁, q₂) sits at
   (q₀·1 + y₀, q₁·1 + y₁, q₂·512 + y₂) of the array. Window 0 has block index (t, 0, 0): its block is row t of the
   features. Window 1 has block index (label word t, 0, 0): its block is the row of the centres that label t names.
   The table of labels is a variable throughout. -/
import proofs.«425759_j86672440033822_2_alg».proof.Proof.Gen.KernelIdeal.Launch
import proofs.«425759_j86672440033822_2_alg».proof.Proof.Gen.KernelIdeal.Regions
import proofs.«425759_j86672440033822_2_alg».proof.Proof.KernelTerm
import proofs.«425759_j86672440033822_2_alg».proof.Proof.OkOfPre
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## The grid -/

/-- The grid has one axis of 256 points, so the coordinate of point t is t. -/
theorem coord0_val (t : Fin grid0.N) : (grid0.coords t 0).val = t.val := by
  have h : t.val < 256 := lt_of_lt_of_eq t.isLt N_0
  have hs : grid0.stride 0 = 1 := by decide
  show t.val / grid0.stride 0 % 256 = t.val
  rw [hs]; omega

/-- A grid coordinate survives the round trip through a 32-bit word. -/
theorem word_of_coord (t : Fin grid0.N) : (BitVec.ofNat 32 (grid0.coords t 0).val).toNat = t.val := by
  have h : t.val < 256 := lt_of_lt_of_eq t.isLt N_0
  rw [coord0_val, BitVec.toNat_ofNat, Nat.mod_eq_of_lt (by omega)]

/-! ## The reshaped arrays read at an index -/

/-- The reshaped features at (r, 0, d) are the features at (r, d). -/
theorem feats3_apply (f : Vec F S256x512 .f32) (j : S256x1x512.Idx) (r : Fin 256) (d : Fin 512)
    (h0 : (j 0).val = r.val) (h2 : (j 2).val = d.val) :
    broadcastInDim S256x1x512 ![0, 2] bcast_S256x512_S256x1x512_0_2 f j = f (ValueIdx.ix2 r d) := by
  refine broadcastInDim_apply _ _ f j _ (fun a => ?_)
  match a with
  | ⟨0, _⟩ => exact h0.symm
  | ⟨1, _⟩ => exact h2.symm

/-- The reshaped centres at (r, 0, d) are the centres at (r, d). -/
theorem cents3_apply (cen : Vec F S100000x512 .f32) (j : S100000x1x512.Idx) (r : Fin 100000) (d : Fin 512)
    (h0 : (j 0).val = r.val) (h2 : (j 2).val = d.val) :
    broadcastInDim S100000x1x512 ![0, 2] bcast_S100000x512_S100000x1x512_0_2 cen j = cen (ValueIdx.ix2 r d) := by
  refine broadcastInDim_apply _ _ cen j _ (fun a => ?_)
  match a with
  | ⟨0, _⟩ => exact h0.symm
  | ⟨1, _⟩ => exact h2.symm

/-! ## The blocks -/

/-- Window 0's block at point t is row t of the features. -/
theorem blk0_0_read (a0 : (pcfg0 (F := F)).Adm) (t : Fin (cfg0 a0).N) (f : Vec F S256x512 .f32) :
    (((cfg0 a0).win 0).blk t).view.read (Elt F) (broadcastInDim S256x1x512 ![0, 2] bcast_S256x512_S256x1x512_0_2 f)
      = Term.fRow f ⟨t.val, lt_of_lt_of_eq t.isLt N_0⟩ := by
  refine funext fun (y : S1x1x512.Idx) => ?_
  show broadcastInDim S256x1x512 ![0, 2] bcast_S256x512_S256x1x512_0_2 f ((((cfg0 a0).win 0).blk t).view.emb y)
    = f (ValueIdx.ix2 ⟨t.val, lt_of_lt_of_eq t.isLt N_0⟩ (y 2))
  refine feats3_apply f _ _ _ ?_ ?_
  · show (BitVec.ofNat 32 (grid0.coords t 0).val).toNat * 1 + 1 * (y 0).val = t.val
    rw [word_of_coord]
    have hy : (y 0).val < 1 := (y 0).isLt
    omega
  · show 0 * 512 + 1 * (y 2).val = (y 2).val
    omega

/-- Window 1's block at point t is the row of the centres that label t names. -/
theorem blk0_1_read (a0 : (pcfg0 (F := F)).Adm) (t : Fin (cfg0 a0).N) (cen : Vec F S100000x512 .f32)
    (hlab : ∀ b : Fin 256, ((a0.1 0 : IVec S256 32) (ValueIdx.ix1 b)).toNat < 100000) :
    (((cfg0 a0).win 1).blk t).view.read (Elt F) (broadcastInDim S100000x1x512 ![0, 2] bcast_S100000x512_S100000x1x512_0_2 cen)
      = Term.cRow cen (Term.sel (a0.1 0) hlab ⟨t.val, lt_of_lt_of_eq t.isLt N_0⟩) := by
  refine funext fun (y : S1x1x512.Idx) => ?_
  show broadcastInDim S100000x1x512 ![0, 2] bcast_S100000x512_S100000x1x512_0_2 cen ((((cfg0 a0).win 1).blk t).view.emb y)
    = cen (ValueIdx.ix2 (Term.sel (a0.1 0) hlab ⟨t.val, lt_of_lt_of_eq t.isLt N_0⟩) (y 2))
  have hq : ((cfg0 a0).win 1).index t
      = ![((a0.1 0 : IVec S256 32) (ValueIdx.ix1 (n := 256) (grid0.coords t 0))).toNat, 0, 0] :=
    Cert.Hand.OkOfPre.transform_1_eq a0.1 (grid0.coords t)
  have q0 : ((cfg0 a0).win 1).index t (0 : Fin 3)
      = ((a0.1 0 : IVec S256 32) (ValueIdx.ix1 (n := 256) (grid0.coords t 0))).toNat := congrFun hq (0 : Fin 3)
  have q2 : ((cfg0 a0).win 1).index t (2 : Fin 3) = 0 := congrFun hq (2 : Fin 3)
  have hc : (grid0.coords t 0 : Fin 256) = ⟨t.val, lt_of_lt_of_eq t.isLt N_0⟩ := Fin.ext (coord0_val t)
  refine cents3_apply cen _ _ _ ?_ ?_
  · show ((cfg0 a0).win 1).index t (0 : Fin 3) * 1 + 1 * (y 0).val = _
    have hy1 : (y 0).val < 1 := (y 0).isLt
    have hy : (y 0).val = 0 := by omega
    rw [hy, Nat.mul_one, Nat.mul_zero, Nat.add_zero, q0]
    exact congrArg (fun b : Fin 256 => ((a0.1 0 : IVec S256 32) (ValueIdx.ix1 b)).toNat) hc
  · show ((cfg0 a0).win 1).index t (2 : Fin 3) * 512 + 1 * (y 2).val = (y 2).val
    rw [q2]
    omega

/-! ## The arrays the first call finds -/

/-- On entry to the first call the 256×1×512 window array holds the reshaped features, -/
theorem V1_main_v0 (m : (ℓ : Loc nD τ sig) → Buf (Elt F) ℓ) (c : Dev nD) :
    Gen.V1 m c main_v0 = (broadcastInDim S256x1x512 ![0, 2] bcast_S256x512_S256x1x512_0_2 (m ((c : Thread nD τ).loc main_arg0)) : Vec F S256x1x512 .f32) := by
  show StableHlo.after hostOps0 (fun b => m (c, b)) (Proc.devRef .tc main_v0) = _
  after_results

/-- the 100000×1×512 window array the reshaped centres, -/
theorem V1_main_v1 (m : (ℓ : Loc nD τ sig) → Buf (Elt F) ℓ) (c : Dev nD) :
    Gen.V1 m c main_v1 = (broadcastInDim S100000x1x512 ![0, 2] bcast_S100000x512_S100000x1x512_0_2 (m ((c : Thread nD τ).loc main_arg1)) : Vec F S100000x1x512 .f32) := by
  show StableHlo.after hostOps0 (fun b => m (c, b)) (Proc.devRef .tc main_v1) = _
  after_results

/-- and the table of labels is as launched: the host writes only the two reshaped arrays. -/
theorem V1_main_arg2 (m : (ℓ : Loc nD τ sig) → Buf (Elt F) ℓ) (c : Dev nD) :
    Gen.V1 m c main_arg2 = m ((c : Thread nD τ).loc main_arg2) :=
  (Gen.V1_of m c main_arg2 (by decide)).trans rfl

end Cert.KernelIdeal.Hand

end
-- ==== Proof.KernelValue.lean ====
/- What the kernel's run leaves in its result buffer, as the one pure function of the three argument arrays.

   At grid point t the first call's two input blocks are row t of the features and row labels[t] of the centres, so
   its accumulator after point n is the pure recursion over rows 0 … n; its one-cell output is the accumulator after
   the last row; the second call's output is its payload on the features and that cell. -/
import proofs.«425759_j86672440033822_2_alg».proof.Proof.KernelFrame
import proofs.«425759_j86672440033822_2_alg».proof.Proof.LaunchedValue
import proofs.«425759_j86672440033822_2_alg».proof.Proof.Blocks0

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

/-- THE RUN WITH ITS RESULT: as the frame, and the result buffer ends at what the second call's write-back leaves. -/
theorem run (hO : Ok m) : θ_run defs (onTc (τ := τ) (main (F := F))) ⟨m, fun _ => 0, ρ⟩ (fun r => ∀ c : Dev nD,
      r.2.mem ((c.tc : Thread nD τ).loc main_v3) = o3 m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨(hr c).1.trans (outs_v3 m hO c), (hr c).2⟩)
    (run_gen m ρ (outs m hO) (adm0 m hO) (d0 m hO) (d1 m hO)
      (V1_tbl m) (fun c w => A_eq0 _ _ _ c w) (fun _ _ => rfl) (fun _ _ => rfl) (fun _ _ => rfl)
      (fun c => body_obligation0 _ _ _ c) (fun c => hin0 _ _ _ c) (fun c => hout0 _ _ _ c) (hF0 m hO) (hrest0 m hO)
      (hA1 m hO) (fun _ _ => rfl) (fun _ _ => rfl) (fun _ _ => rfl) (fun _ _ => rfl)
      (fun c => body_obligation1 _ c) (hF1 m hO) (hrest1 m hO))

/-! ## The first call's blocks are rows of the arguments -/

/-- Window 0's block at point t is row t of the features. -/
theorem iblk0_0_eq (hO : Ok m) (c : Dev nD) (t : Fin (cfg0 (adm0 m hO)).N) :
    iblk0 (adm0 m hO) (fun c b => V1 m c b) c 0 t = Term.fRow (m ((c : Thread nD τ).loc main_arg0)) ⟨t.val, lt_of_lt_of_eq t.isLt N_0⟩ := by
  unfold iblk0
  show (((cfg0 (adm0 m hO)).win 0).blk t).view.read (Elt F) (V1 m c main_v0) = _
  rw [V1_main_v0]; exact blk0_0_read (adm0 m hO) t _

/-- Window 1's block at point t is the row of the centres that label word t selects. -/
theorem iblk0_1_eq (hO : Ok m) (c : Dev nD) (hlab : ∀ b : Fin 256, ((tbl m 0 : IVec S256 32) (ValueIdx.ix1 b)).toNat < 100000) (t : Fin (cfg0 (adm0 m hO)).N) :
    iblk0 (adm0 m hO) (fun c b => V1 m c b) c 1 t = Term.cRow (m ((c : Thread nD τ).loc main_arg1)) (Term.sel (tbl m 0) hlab ⟨t.val, lt_of_lt_of_eq t.isLt N_0⟩) := by
  unfold iblk0
  show (((cfg0 (adm0 m hO)).win 1).blk t).view.read (Elt F) (V1 m c main_v1) = _
  rw [V1_main_v1]; exact blk0_1_read (adm0 m hO) t _ hlab

/-- The accumulator after point n is the pure recursion over rows 0 … n. -/
theorem accAt_eq (hO : Ok m) (c : Dev nD) (hlab : ∀ b : Fin 256, ((tbl m 0 : IVec S256 32) (ValueIdx.ix1 b)).toNat < 100000) :
    ∀ (n : ℕ) (h : n < (cfg0 (adm0 m hO)).N),
      accAt (adm0 m hO) (fun c b => V1 m c b) c n h
        = Term.accUpTo (m ((c : Thread nD τ).loc main_arg0)) (m ((c : Thread nD τ).loc main_arg1)) (tbl m 0) hlab n (lt_of_lt_of_eq h N_0)
  | 0, h => by
      rw [accAt_zero, iblk0_0_eq m hO c ⟨0, h⟩, iblk0_1_eq m hO c hlab ⟨0, h⟩]; rfl
  | n + 1, h => by
      rw [accAt_succ, iblk0_0_eq m hO c ⟨n + 1, h⟩, iblk0_1_eq m hO c hlab ⟨n + 1, h⟩, accAt_eq hO c hlab n (Nat.lt_of_succ_lt h)]; rfl

/-- The label table is the third argument. -/
theorem tbl_zero (c : Dev nD) : (tbl m 0 : IVec S256 32) = m ((c : Thread nD τ).loc main_arg2) := by
  obtain rfl : c = 0 := Subsingleton.elim _ _; rfl

/-- THE RESULT: what the run leaves in the result buffer is the kernel's pure term of the three arguments. -/
theorem o3_eq (hO : Ok m) (c : Dev nD)
    (hlab : ∀ b : Fin 256, ((m ((c : Thread nD τ).loc main_arg2) : IVec S256 32) (ValueIdx.ix1 b)).toNat < 100000) :
    o3 m hO c = Term.result (m ((c : Thread nD τ).loc main_arg0)) (m ((c : Thread nD τ).loc main_arg1)) (m ((c : Thread nD τ).loc main_arg2)) hlab := by
  obtain rfl : c = 0 := Subsingleton.elim _ _
  have hlab' : ∀ b : Fin 256, ((tbl m 0 : IVec S256 32) (ValueIdx.ix1 b)).toNat < 100000 := hlab
  have h1 : o3 m hO 0 = k1_pay1 (Wb m hO 0 main_arg0) (Wb m hO 0 main_v2) := final1 (fun c b => Wb m hO c b) 0
  have h2 : Wb m hO 0 main_arg0 = m (((0 : Dev nD) : Thread nD τ).loc main_arg0) := by
    rw [← V2_eq]; exact (V2_of m (outs m hO) 0 main_arg0 (by decide)).trans ((V1_of m 0 main_arg0 (by decide)).trans rfl)
  have h3 : Wb m hO 0 main_v2 = o2 m hO 0 := by unfold Wb; rw [Function.update_self]
  have h4 := final0 (adm0 m hO) (fun c b => V1 m c b) (tblHeld (adm0 m hO)) (0 : Dev nD)
  rw [h1, h2, h3]
  show k1_pay1 _ ((d0 m hO 0).arrAt 2 (cfg0 (adm0 m hO)).N) = _
  rw [h4, accAt_eq m hO 0 hlab' 255 _]
  rfl

end Cert.KernelIdeal.Hand

end
-- ==== Proof.Spec.lean ====
/- The two scalars-and-rows the certificate is about, as plain sums over the extended reals.

   `dist b` is the squared distance of feature row `b` to the class centre its label selects, expanded as
   `(Σ f² + Σ c²) − two · Σ f·c` exactly as both programs spell it (`two` is the float word 2.0, never evaluated);
   `tot` is its sum over the 256 rows. Addition on the extended reals is commutative and associative, so the order in
   which either program adds the rows does not matter; nothing here needs the inputs finite. -/
import Idealize.ShloMosaic.PureOps.Ideal
import Idealize.ShloMosaic.Lib.ValueIdx

noncomputable section

namespace Cert.Spec

open Idealize.ShloMosaic

/-- Row `b`, column `d` of a 256×512 array. -/
abbrev at2 (f : (⟨2, ![256, 512]⟩ : Shape).Idx → EReal) (b : Fin 256) (d : Fin 512) : EReal := f (ValueIdx.ix2 b d)
/-- Row `r`, column `d` of the 100000×512 table. -/
abbrev atC (cen : (⟨2, ![100000, 512]⟩ : Shape).Idx → EReal) (r : Fin 100000) (d : Fin 512) : EReal := cen (ValueIdx.ix2 r d)

/-- The float word 2.0 at the exact instance (kept as the word on both sides). -/
abbrev two : EReal := Ideal.ofBits .f32 0x40000000#32

/-- The expanded squared distance of row `b` to the centre `r b`. -/
def dist (f : (⟨2, ![256, 512]⟩ : Shape).Idx → EReal) (cen : (⟨2, ![100000, 512]⟩ : Shape).Idx → EReal) (r : Fin 256 → Fin 100000) (b : Fin 256) : EReal :=
  ((∑ d : Fin 512, at2 f b d * at2 f b d) + (∑ d : Fin 512, atC cen (r b) d * atC cen (r b) d))
    - two * (∑ d : Fin 512, at2 f b d * atC cen (r b) d)

/-- The sum of the 256 distances. -/
def tot (f : (⟨2, ![256, 512]⟩ : Shape).Idx → EReal) (cen : (⟨2, ![100000, 512]⟩ : Shape).Idx → EReal) (r : Fin 256 → Fin 100000) : EReal :=
  ∑ b : Fin 256, dist f cen r b

end Cert.Spec

end
-- ==== Proof.TotalValue.lean ====
/- The scalar both programs add to the log-softmax, at the exact instance (a float an extended real, every operation exact).

   Kernel side. The one-cell accumulator starts at zero and, at row `b`, takes
   `acc + ((Σ_d f_bd² + Σ_d c_rd²) − two · Σ_d f_bd · c_rd)` with `r` the row of the table the label of `b` selects, each
   `Σ_d` a sum over the 512 lanes started from the zero word. Read at its one index the update is `acc + dist b`, so after
   rows `0 … n` the accumulator is `Σ_{b ≤ n} dist b` by induction on `n`, and after the last row it is `Σ_b dist b`.
   Only `0 + x = x` and the shape of a finite sum over an initial segment are used: nothing is distributed and no input
   need be finite. The word 2.0 stays the word `two` on both sides.

   Reference side. The reference gathers the table's rows at start indices `select (lab < 0, lab + 100000, lab)`, read
   signed and clamped so that the row fits. A label word below 100000 is not negative as a signed word, so the select
   keeps it, its signed reading is its unsigned one, and the clamp to `[0, 99999]` is the identity: the gathered row `b`
   is row `sel lab b` of the table. Each of its three row sums is `0 + Σ_d`, so entry `b` of its vector of distances is
   `dist b`, and its last sum over the 256 entries is `0 + Σ_b dist b`. -/
import proofs.«425759_j86672440033822_2_alg».proof.Proof.KernelTerm
import proofs.«425759_j86672440033822_2_alg».proof.Proof.Spec
import proofs.«425759_j86672440033822_2_alg».proof.Proof.RefRead
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Mathlib.Algebra.BigOperators.Fin

noncomputable section

open scoped BigOperators

namespace Cert.Hand.TotalValue

section Kernel

open Idealize.ShloMosaic Idealize.ShloMosaic.ValueIdx Cert.KernelIdeal Cert.KernelIdeal.Gen Cert.KernelIdeal.Term

/-! ## The first body's update, read at its one index -/

/-- A 1×1 vector has one index. -/
theorem idx11 (j : S1x1.Idx) : j = ix2 (0 : Fin 1) (0 : Fin 1) := by
  funext a
  match a with
  | ⟨0, _⟩ => exact Fin.fin_one_eq_zero _
  | ⟨1, _⟩ => exact Fin.fin_one_eq_zero _

/-- A 1×1×1 vector has one index. -/
theorem idx111 (j : S1x1x1.Idx) : j = ix3 (0 : Fin 1) (0 : Fin 1) (0 : Fin 1) := by
  funext a
  match a with
  | ⟨0, _⟩ => exact Fin.fin_one_eq_zero _
  | ⟨1, _⟩ => exact Fin.fin_one_eq_zero _
  | ⟨2, _⟩ => exact Fin.fin_one_eq_zero _

/-- The sum over the 512 lanes of a 1×1×512 block, the accumulator word being zero: the plain sum of the lanes. -/
theorem laneSum (src : FVec Ideal S1x1x512 .f32) (h : S1x1x512.Reduces [2] S1x1) (hφ : FKind.Formats .f32)
    (hacc : (0x00000000#32 : BitVec 32) = 0x00000000#32) (j : S1x1.Idx) :
    multiReduction (F := Ideal) .add [2] S1x1 src 0x00000000#32 h hφ hacc j
      = ∑ d : Fin 512, src (ix3 (0 : Fin 1) (0 : Fin 1) d) := by
  refine (Ideal.multiReduction_add_single src 0x00000000#32 h hφ hacc j).trans ?_
  rw [idx11 j]
  refine Finset.sum_congr rfl fun d _ => congrArg src (funext fun a => Fin.ext ?_)
  match a with
  | ⟨0, _⟩ => rfl
  | ⟨1, _⟩ => rfl
  | ⟨2, _⟩ => rfl

/-- A 1×1 vector viewed as 1×1×1 keeps its one element. -/
theorem cast_11_111 (v : FVec Ideal S1x1 .f32) (h : S1x1.ShapeCasts S1x1x1) (j : S1x1x1.Idx) :
    shapeCast S1x1x1 v h j = v (ix2 (0 : Fin 1) (0 : Fin 1)) := by
  rw [idx111 j]
  exact shapeCast_ab_1ab_apply v h 0 0 0

/-- A 1×1×1 vector viewed as 1×1 keeps its one element. -/
theorem cast_111_11 (v : FVec Ideal S1x1x1 .f32) (h : S1x1x1.ShapeCasts S1x1) (j : S1x1.Idx) :
    shapeCast S1x1 v h j = v (ix3 (0 : Fin 1) (0 : Fin 1) (0 : Fin 1)) := by
  rw [idx11 j]
  exact shapeCast_1ab_ab_apply v h 0 0

/-- The update: the accumulator plus (Σ x² + Σ c²) − two · Σ x·c over the 512 lanes of the two blocks. -/
theorem pay2_apply (x c : Vec Ideal S1x1x512 .f32) (acc : Vec Ideal S1x1x1 .f32) (j : S1x1x1.Idx) :
    k0_pay2 (F := Ideal) x c acc j
      = acc j + (((∑ d : Fin 512, x (ix3 (0 : Fin 1) (0 : Fin 1) d) * x (ix3 (0 : Fin 1) (0 : Fin 1) d))
            + ∑ d : Fin 512, c (ix3 (0 : Fin 1) (0 : Fin 1) d) * c (ix3 (0 : Fin 1) (0 : Fin 1) d))
          - Cert.Spec.two * ∑ d : Fin 512, x (ix3 (0 : Fin 1) (0 : Fin 1) d) * c (ix3 (0 : Fin 1) (0 : Fin 1) d)) := by
  unfold k0_pay2
  simp only [shapeCast_self]
  simp only [addf_apply, subf_apply, mulf_apply, broadcast_apply, cast_11_111]
  have hxx := laneSum (mulf x x) reduces_S1x1x512_S1x1 (.inl rfl) rfl (ix2 (0 : Fin 1) (0 : Fin 1))
  have hcc := laneSum (mulf c c) reduces_S1x1x512_S1x1 (.inl rfl) rfl (ix2 (0 : Fin 1) (0 : Fin 1))
  have hxc := laneSum (mulf x c) reduces_S1x1x512_S1x1 (.inl rfl) rfl (ix2 (0 : Fin 1) (0 : Fin 1))
  exact congrArg₂ (· + ·) rfl (congrArg₂ (· - ·) (congrArg₂ (· + ·) hxx hcc) (congrArg₂ (· * ·) rfl hxc))

/-! ## The accumulator after each row, and the scalar handed on -/

/-- The reset value is the zero vector. -/
theorem pay1_apply (j : S1x1x1.Idx) : (k0_pay1 (F := Ideal)) j = 0 := by
  unfold k0_pay1
  simp only [shapeCast_self, broadcast_apply]
  exact Ideal.ofBits_zero_f32

/-- One row's update adds that row's expanded squared distance to its selected centre. -/
theorem pay2_rows (f : Vec Ideal S256x512 .f32) (cen : Vec Ideal S100000x512 .f32) (r : Fin 256 → Fin 100000) (b : Fin 256)
    (acc : Vec Ideal S1x1x1 .f32) (j : S1x1x1.Idx) :
    k0_pay2 (F := Ideal) (fRow f b) (cRow cen (r b)) acc j = acc j + Cert.Spec.dist f cen r b :=
  pay2_apply (fRow f b) (cRow cen (r b)) acc j

/-- Row `b`'s distance when `b` is a row number, zero past the last row: the summand over the naturals. -/
def distN (f : Vec Ideal S256x512 .f32) (cen : Vec Ideal S100000x512 .f32) (r : Fin 256 → Fin 100000) (b : ℕ) : EReal :=
  if hb : b < 256 then Cert.Spec.dist f cen r ⟨b, hb⟩ else 0

/-- After rows `0 … n` the accumulator holds the sum of their distances: by induction on the row, each step adding
    one term on the right of the sum so far. -/
theorem accUpTo_eq (f : Vec Ideal S256x512 .f32) (cen : Vec Ideal S100000x512 .f32) (lab : IVec S256 32)
    (hlab : ∀ b : Fin 256, (lab (ValueIdx.ix1 b)).toNat < 100000) :
    ∀ (n : ℕ) (h : n < 256) (j : S1x1x1.Idx),
      accUpTo (F := Ideal) f cen lab hlab n h j = ∑ b ∈ Finset.range (n + 1), distN f cen (sel lab hlab) b
  | 0, h, j => by
    show k0_pay2 (F := Ideal) (fRow f ⟨0, h⟩) (cRow cen (sel lab hlab ⟨0, h⟩)) (k0_pay1 (F := Ideal)) j = _
    rw [pay2_rows f cen (sel lab hlab) ⟨0, h⟩, pay1_apply, zero_add, Finset.sum_range_one]
    unfold distN
    rw [dif_pos h]
  | n + 1, h, j => by
    show k0_pay2 (F := Ideal) (fRow f ⟨n + 1, h⟩) (cRow cen (sel lab hlab ⟨n + 1, h⟩))
      (accUpTo f cen lab hlab n (Nat.lt_of_succ_lt h)) j = _
    rw [pay2_rows f cen (sel lab hlab) ⟨n + 1, h⟩, accUpTo_eq f cen lab hlab n (Nat.lt_of_succ_lt h) j,
      Finset.sum_range_succ _ (n + 1)]
    refine congrArg (_ + ·) ?_
    unfold distN
    rw [dif_pos h]

/-- The scalar the first call hands to the second is the sum of the 256 distances. -/
theorem total_eq (f : Vec Ideal Cert.KernelIdeal.S256x512 .f32) (cen : Vec Ideal Cert.KernelIdeal.S100000x512 .f32)
    (lab : IVec Cert.KernelIdeal.S256 32) (hlab : ∀ b : Fin 256, (lab (ValueIdx.ix1 b)).toNat < 100000) :
    total (F := Ideal) f cen lab hlab = fun _ => Cert.Spec.tot f cen (sel lab hlab) := by
  funext j
  unfold total k0_pay3
  rw [cast_111_11, accUpTo_eq f cen lab hlab 255 (by decide)]
  unfold Cert.Spec.tot
  rw [← Fin.sum_univ_eq_sum_range (distN f cen (sel lab hlab)) 256]
  refine Finset.sum_congr rfl fun b _ => ?_
  unfold distN
  rw [dif_pos b.isLt]

end Kernel

section Reference

open Idealize.ShloMosaic Idealize.ShloMosaic.ValueIdx Cert.ReferenceIdeal Cert.ReferenceIdeal.Gen Cert.ReferenceIdeal.ReadP

/-! ## The reference's gather of the class centres, read at an index -/

/-- The gather's dimension numbers: rows of the table by one start index each. -/
abbrev rowDims : GatherDims S100000x512 S256x1 S256x512 := gather_S100000x512_S256x1_S256x512_1_0_n_n_0_1_1512

/-- On the row axis the operand index is the start index of result row `b`, read signed and clamped to the table. -/
theorem rowDims_axis0 (idx : IVec S256x1 32) (b : Fin 256) (k : Fin 512) :
    (rowDims.operandIdx (ix2 b k) idx 0).val = min (idx (ix2 b (0 : Fin 1))).toInt.toNat (100000 - 1) := by
  show rowDims.start (ix2 b k) idx 0 + rowDims.batchCoord (ix2 b k) 0 + rowDims.offCoord (ix2 b k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ rowDims.startIndexMap from List.mem_singleton.mpr rfl)]
  have hsi : rowDims.siIdx (ix2 b k) ⟨List.idxOf (0 : Fin 2) rowDims.startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- On the column axis the operand index is the result's column. -/
theorem rowDims_axis1 (idx : IVec S256x1 32) (b : Fin 256) (k : Fin 512) :
    (rowDims.operandIdx (ix2 b k) idx 1).val = k.val := by
  show rowDims.start (ix2 b k) idx 1 + rowDims.batchCoord (ix2 b k) 1 + rowDims.offCoord (ix2 b k) 1 = _
  rw [GatherDims.batchCoord_eq_zero _ _ _ List.not_mem_nil]
  unfold GatherDims.start
  rw [dif_neg (show ¬ (1 : Fin 2) ∈ rowDims.startIndexMap from by decide), Nat.zero_add]
  unfold GatherDims.offCoord
  rw [dif_pos ((GatherDims.mem_sKept _ _).mpr ⟨by decide, List.not_mem_nil⟩)]
  rfl

/-- A start index that is a row number of the table gathers that row. -/
theorem gather_row (cen : S100000x512.Idx → EReal) (idx : IVec S256x1 32) (b : Fin 256) (k : Fin 512) (r : Fin 100000)
    (hr : (idx (ix2 b (0 : Fin 1))).toInt.toNat = r.val) :
    Host.gather rowDims cen idx (ix2 b k) = cen (ix2 r k) := by
  unfold Host.gather
  refine congrArg cen (funext fun a => Fin.ext ?_)
  match a with
  | ⟨0, _⟩ =>
    refine (rowDims_axis0 idx b k).trans ?_
    rw [hr]
    show min r.val (100000 - 1) = r.val
    have := r.isLt
    omega
  | ⟨1, _⟩ => exact rowDims_axis1 idx b k

/-! ## The start indices: an in-range label is its own row number -/

/-- A word below 100000 reads the same signed and unsigned. -/
theorem word_toInt (w : BitVec 32) (hw : w.toNat < 100000) : w.toInt = (w.toNat : ℤ) :=
  BitVec.toInt_eq_toNat_of_lt (by omega)

/-- A word below 100000 is not below zero in the signed order. -/
theorem word_not_neg (w : BitVec 32) (hw : w.toNat < 100000) : IntOp.cmpi .slt w 0#32 = 0#1 := by
  show BitVec.ofBool (w.slt 0#32) = 0#1
  rw [BitVec.slt_eq_decide, word_toInt w hw, BitVec.toInt_zero, decide_eq_false (by omega)]
  rfl

/-- The wrap-around of negative labels leaves an in-range label as it is: the start index of row `b` is the label. -/
theorem start_word (lab : IVec S256 32) (b : Fin 256) (hb : (lab (ix1 b)).toNat < 100000) :
    val_main_v5 (F := Ideal) lab (ix2 b (0 : Fin 1)) = lab (ix1 b) := by
  have hi : idx_main_v5 (ix2 b (0 : Fin 1)) = ix1 b := funext fun a => by match a with | ⟨0, _⟩ => rfl
  rw [val_main_v5_apply, hi, val_main_v4_apply, val_main_v1_apply, val_main_v0_apply, val_main_c_apply, word_not_neg _ hb]
  exact select_zero _ _

/-- The gathered array at row `b` is the table's row the label selects. -/
theorem v6_apply (cen : Vec Ideal S100000x512 .f32) (lab : IVec S256 32)
    (hlab : ∀ b : Fin 256, (lab (ix1 b)).toNat < 100000) (b : Fin 256) (k : Fin 512) :
    val_main_v6 (F := Ideal) cen lab (ix2 b k) = cen (ix2 (Cert.KernelIdeal.Term.sel lab hlab b) k) := by
  unfold val_main_v6
  refine gather_row cen (val_main_v5 (F := Ideal) lab) b k (Cert.KernelIdeal.Term.sel lab hlab b) ?_
  rw [start_word lab b (hlab b), word_toInt _ (hlab b), Int.toNat_natCast]
  rfl

/-! ## The reference's scalar -/

/-- Row `b` of the reference's vector of distances is the expanded squared distance of row `b`. -/
theorem v16_apply (f : Vec Ideal S256x512 .f32) (cen : Vec Ideal S100000x512 .f32) (lab : IVec S256 32)
    (hlab : ∀ b : Fin 256, (lab (ix1 b)).toNat < 100000) (b : Fin 256) :
    val_main_v16 (F := Ideal) f cen lab (ix1 b) = Cert.Spec.dist f cen (Cert.KernelIdeal.Term.sel lab hlab) b := by
  have h8 : ∀ k : Fin 512, idx_main_v8 (ix1 b) k = ix2 b k := fun k =>
    funext fun a => by match a with | ⟨0, _⟩ => rfl | ⟨1, _⟩ => rfl
  have h10 : ∀ k : Fin 512, idx_main_v10 (ix1 b) k = ix2 b k := fun k =>
    funext fun a => by match a with | ⟨0, _⟩ => rfl | ⟨1, _⟩ => rfl
  have h13 : ∀ k : Fin 512, idx_main_v13 (ix1 b) k = ix2 b k := fun k =>
    funext fun a => by match a with | ⟨0, _⟩ => rfl | ⟨1, _⟩ => rfl
  rw [val_main_v16_apply, val_main_v11_apply, val_main_v15_apply, val_main_v8_apply, val_main_v10_apply,
    val_main_v13_apply, val_main_v14_apply, val_main_cst_3_apply, val_main_cst_apply, val_main_cst_1_apply,
    val_main_cst_2_apply]
  simp only [h8, h10, h13, val_main_v7_apply, val_main_v9_apply, val_main_v12_apply, v6_apply _ _ hlab,
    Ideal.addf_def, Ideal.subf_def, Ideal.mulf_def, Ideal.ofBits_def, Ideal.ofBits_zero_f32, zero_add]
  rfl

/-- The reference's scalar is the sum of the 256 distances. -/
theorem ref_total_eq (f : Vec Ideal Cert.KernelIdeal.S256x512 .f32) (cen : Vec Ideal Cert.KernelIdeal.S100000x512 .f32)
    (lab : IVec Cert.KernelIdeal.S256 32) (hlab : ∀ b : Fin 256, (lab (ValueIdx.ix1 b)).toNat < 100000) :
    Cert.ReferenceIdeal.ReadP.val_main_v17 (F := Ideal) f cen lab
      = fun _ => Cert.Spec.tot f cen (Cert.KernelIdeal.Term.sel lab hlab) := by
  funext i
  rw [val_main_v17_apply, val_main_cst_4_apply, Ideal.ofBits_def, Ideal.ofBits_zero_f32, zero_add]
  unfold Cert.Spec.tot
  refine (Equiv.sum_comp (idxEquiv1 (n := 256)).symm (val_main_v16 (F := Ideal) f cen lab)).symm.trans ?_
  exact Finset.sum_congr rfl fun b _ => v16_apply f cen lab hlab b

end Reference

end Cert.Hand.TotalValue
-- ==== Proof.SoftmaxValue.lean ====
/- The second body's value against the reference's log-softmax stage, at the exact instance.

   Row b of the features has the maximum M b: the fold of max from −∞ over its 512 columns. The row-wise
   log-softmax at (b, d) is (f b d − M b) − log Σ_d' exp (f b d' − M b). Both programs spell exactly this. The
   second body takes a lane maximum and a lane sum and spreads each over the row by the keep-dims column forms
   [256] → [256, 1] → [256, 512]; the reference takes a reduce with a maximum body from −∞, then a further
   maximum against −∞ (the identity, −∞ being the least extended real), a sum from zero, and broadcasts. The
   scalar handed over by the first call is added on the right by the body and on the left by the reference, and
   addition of extended reals commutes. Nothing here needs the inputs finite. -/
import proofs.«425759_j86672440033822_2_alg».proof.Proof.KernelTerm
import proofs.«425759_j86672440033822_2_alg».proof.Proof.RefRead
import Idealize.ShloMosaic.PureOps.Ideal.Laws
import Idealize.ShloMosaic.Lib.ValueIdx
import Idealize.ShloMosaic.Lib.ValueLayout
import Idealize.ShloMosaic.Lib.Pipeline.Value

noncomputable section

namespace Cert.Hand.SoftmaxValue

open Idealize.ShloMosaic Idealize.ShloMosaic.ValueIdx

/-! ## The row functions both programs compute -/

/-- The float word −∞ at the exact instance; kept as the word, and read as the least element once. -/
abbrev negInf : EReal := Ideal.ofBits .f32 0xFF800000#32

theorem negInf_eq_bot : negInf = ⊥ := by simp [negInf, Ideal.ofBits, Ideal.ieee]

/-- The maximum of row b: the fold of max from −∞ over the columns. -/
def rowMax (f : (⟨2, ![256, 512]⟩ : Shape).Idx → EReal) (b : Fin 256) : EReal :=
  (Finset.univ : Finset (Fin 512)).fold max negInf (fun d => f (ix2 b d))

/-- Entry (b, d) less its row's maximum. -/
def shifted (f : (⟨2, ![256, 512]⟩ : Shape).Idx → EReal) (b : Fin 256) (d : Fin 512) : EReal :=
  f (ix2 b d) - rowMax f b

/-- The logarithm of the row's sum of exponentials of the shifted entries. -/
def logSum (f : (⟨2, ![256, 512]⟩ : Shape).Idx → EReal) (b : Fin 256) : EReal :=
  Ideal.log (∑ d : Fin 512, Ideal.exp (shifted f b d))

/-- The row-wise log-softmax at (b, d). -/
def logSoftmax (f : (⟨2, ![256, 512]⟩ : Shape).Idx → EReal) (b : Fin 256) (d : Fin 512) : EReal :=
  shifted f b d - logSum f b

/-! ## The keep-dims column forms read at an index -/

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The second body's two lane reductions -/

/-- Row b with column k put back is (b, k). -/
theorem lift_row (h : (⟨2, ![256, 512]⟩ : Shape).Reduces [1] ⟨1, ![256]⟩) (b : Fin 256) (k : Fin 512) :
    h.lift (ix1 b) k = ix2 b k := by
  funext c; apply Fin.ext
  match c with
  | ⟨0, _⟩ => rfl
  | ⟨1, _⟩ => rfl

/-- The lane maximum from −∞ at row b is the row's maximum. -/
theorem laneMax_apply (x : FVec Ideal ⟨2, ![256, 512]⟩ .f32) (h : (⟨2, ![256, 512]⟩ : Shape).Reduces [1] ⟨1, ![256]⟩)
    (hφ : FKind.Formats .f32) (hacc : (0xFF800000#32 : BitVec 32) = 0xFF800000#32) (b : Fin 256) :
    multiReduction (F := Ideal) .maximumf [1] ⟨1, ![256]⟩ x 0xFF800000#32 h hφ hacc (ix1 b) = rowMax x b := by
  refine (Ideal.multiReduction_maximumf_single x 0xFF800000#32 h hφ hacc (ix1 b)).trans ?_
  exact congrArg (fun g => Finset.fold max negInf g (Finset.univ : Finset (Fin 512)))
    (funext fun k => congrArg x (lift_row h b k))

/-- The lane sum from zero at row b is the sum over the row. -/
theorem laneSum_apply (x : FVec Ideal ⟨2, ![256, 512]⟩ .f32) (h : (⟨2, ![256, 512]⟩ : Shape).Reduces [1] ⟨1, ![256]⟩)
    (hφ : FKind.Formats .f32) (hacc : (0x00000000#32 : BitVec 32) = 0x00000000#32) (b : Fin 256) :
    multiReduction (F := Ideal) .add [1] ⟨1, ![256]⟩ x 0x00000000#32 h hφ hacc (ix1 b) = ∑ d : Fin 512, x (ix2 b d) := by
  refine (Ideal.multiReduction_add_single x 0x00000000#32 h hφ hacc (ix1 b)).trans ?_
  exact Finset.sum_congr rfl fun k _ => congrArg x (lift_row h b k)

/-! ## The second body at an index -/

section Pointwise
variable {s : Shape} {φ : FTy}

/-- The exponential at an index is the exponential of the element. -/
theorem exp_apply (x : FVec Ideal s φ) (i : s.Idx) : exp x i = Ideal.exp (x i) := rfl
/-- The logarithm at an index is the logarithm of the element. -/
theorem log_apply (x : FVec Ideal s φ) (i : s.Idx) : log x i = Ideal.log (x i) := rfl

end Pointwise

/-- A [256] array spread over the rows, [256] → [256, 1] → [256, 512], reads at (b, d) its entry b. -/
theorem column_apply {α : Type} (v : (⟨1, ![256]⟩ : Shape).Idx → α)
    (hc : (⟨1, ![256]⟩ : Shape).ShapeCasts ⟨2, ![256, 1]⟩) (hb : (⟨2, ![256, 1]⟩ : Shape).Broadcasts ⟨2, ![256, 512]⟩)
    (b : Fin 256) (d : Fin 512) :
    broadcastTo ⟨2, ![256, 512]⟩ (shapeCast ⟨2, ![256, 1]⟩ v hc) hb (ix2 b d) = v (ix1 b) := by
  rw [broadcastTo_a1_ab_apply, shapeCast_a_a1_apply]

/-- The features less the spread lane maximum read, at (b, d), the shifted entry. -/
theorem shift_apply (f : FVec Ideal ⟨2, ![256, 512]⟩ .f32) (hr : (⟨2, ![256, 512]⟩ : Shape).Reduces [1] ⟨1, ![256]⟩)
    (hφ : FKind.Formats .f32) (hacc : (0xFF800000#32 : BitVec 32) = 0xFF800000#32)
    (hc : (⟨1, ![256]⟩ : Shape).ShapeCasts ⟨2, ![256, 1]⟩) (hb : (⟨2, ![256, 1]⟩ : Shape).Broadcasts ⟨2, ![256, 512]⟩)
    (b : Fin 256) (d : Fin 512) :
    subf f (broadcastTo ⟨2, ![256, 512]⟩ (shapeCast ⟨2, ![256, 1]⟩
      (multiReduction (F := Ideal) .maximumf [1] ⟨1, ![256]⟩ f 0xFF800000#32 hr hφ hacc) hc) hb) (ix2 b d)
      = shifted f b d := by
  rw [subf_apply, column_apply, laneMax_apply]
  rfl

/-- The spread logarithm of the lane sum of exponentials of any array X reads, at (b, d), the logarithm of row b's sum. -/
theorem logLaneSum_apply (X : FVec Ideal ⟨2, ![256, 512]⟩ .f32) (hr : (⟨2, ![256, 512]⟩ : Shape).Reduces [1] ⟨1, ![256]⟩)
    (hφ : FKind.Formats .f32) (hacc : (0x00000000#32 : BitVec 32) = 0x00000000#32)
    (hc : (⟨1, ![256]⟩ : Shape).ShapeCasts ⟨2, ![256, 1]⟩) (hb : (⟨2, ![256, 1]⟩ : Shape).Broadcasts ⟨2, ![256, 512]⟩)
    (b : Fin 256) (d : Fin 512) :
    broadcastTo ⟨2, ![256, 512]⟩ (log (shapeCast ⟨2, ![256, 1]⟩
      (multiReduction (F := Ideal) .add [1] ⟨1, ![256]⟩ (exp X) 0x00000000#32 hr hφ hacc) hc)) hb (ix2 b d)
      = Ideal.log (∑ d' : Fin 512, Ideal.exp (X (ix2 b d'))) := by
  rw [broadcastTo_a1_ab_apply, log_apply, shapeCast_a_a1_apply, laneSum_apply]
  rfl

open Cert.KernelIdeal Cert.KernelIdeal.Gen in
/-- The second body's payload at (b, d): the log-softmax there plus the scalar. -/
theorem finalize_at (f : Vec Ideal Cert.KernelIdeal.S256x512 .f32) (s : EReal) (b : Fin 256) (d : Fin 512) :
    k1_pay1 (F := Ideal) f (fun _ => s) (ix2 b d) = logSoftmax f b d + s := by
  unfold k1_pay1
  simp only [addf_apply, subf_apply]
  rw [column_apply, laneMax_apply, logLaneSum_apply]
  exact congrArg₂ (· + ·)
    (congrArg (fun t => f (ix2 b d) - rowMax f b - Ideal.log t)
      (Finset.sum_congr rfl fun d' _ => congrArg Ideal.exp (shift_apply f _ _ _ _ _ b d')))
    rfl

/-! ## The reference's log-softmax at an index -/

/-- The word −∞ denotes the least extended real. -/
theorem ofBits_negInf : Ideal.ofBits .f32 0xFF800000#32 = ⊥ := negInf_eq_bot

/-- A maximum against −∞ is the other operand. -/
theorem max_negInf (x : EReal) : max (Ideal.ofBits .f32 0xFF800000#32) x = x := by
  rw [ofBits_negInf]
  exact max_eq_right bot_le

section Reference
open Cert.ReferenceIdeal Cert.ReferenceIdeal.ReadP

/-- The reference's reduce with a maximum body from −∞ over the columns is, at row b, the row's maximum. -/
theorem ref_rowMax (f : (⟨S256x512, .f32⟩ : BufTy).Contents (Elt Ideal)) (b : Fin 256) :
    val_main_call0_v0 (F := Ideal) f (ix1 b) = rowMax f b := by
  have hr : S256x512.Reduces [1] S256 := by decide
  unfold val_main_call0_v0
  refine (Host.reduce_eq_fold_single (FloatOps.maximumf (F := Ideal) (φ := .f32)) f _ _ hr _ (ix1 b)).trans ?_
  exact congrArg (fun g => Finset.fold max negInf g (Finset.univ : Finset (Fin 512)))
    (funext fun k => congrArg f (lift_row hr b k))

/-- The reference's shifted entries: the features less the broadcast row maximum. -/
theorem ref_shift_apply (f : (⟨S256x512, .f32⟩ : BufTy).Contents (Elt Ideal)) (b : Fin 256) (d : Fin 512) :
    val_main_call0_v5 (F := Ideal) f (ix2 b d) = shifted f b d := by
  have e4 : idx_main_call0_v4 (ix2 b d) = ix2 b (0 : Fin 1) :=
    funext fun a => Fin.ext (by match a with | ⟨0, _⟩ => rfl | ⟨1, _⟩ => rfl)
  have e3 : idx_main_call0_v3 (ix2 b (0 : Fin 1)) = ix1 b :=
    funext fun a => Fin.ext (by match a with | ⟨0, _⟩ => rfl)
  rw [val_main_call0_v5_apply, val_main_call0_v4_apply, e4, val_main_call0_v3_apply, e3, val_main_call0_v2_apply,
    val_main_call0_v1_apply, val_main_call0_cst_0_apply, ref_rowMax, Ideal.ofBits_def, Ideal.maximumf_def, max_negInf]
  rfl

/-- The reference's broadcast logarithm of the row sums of exponentials. -/
theorem ref_logSum_apply (f : (⟨S256x512, .f32⟩ : BufTy).Contents (Elt Ideal)) (b : Fin 256) (d : Fin 512) :
    val_main_call0_v10 (F := Ideal) f (ix2 b d) = logSum f b := by
  have e10 : idx_main_call0_v10 (ix2 b d) = ix2 b (0 : Fin 1) :=
    funext fun a => Fin.ext (by match a with | ⟨0, _⟩ => rfl | ⟨1, _⟩ => rfl)
  have e8 : idx_main_call0_v8 (ix2 b (0 : Fin 1)) = ix1 b :=
    funext fun a => Fin.ext (by match a with | ⟨0, _⟩ => rfl)
  have e7 : ∀ k : Fin 512, idx_main_call0_v7 (ix1 b) k = ix2 b k := fun k =>
    funext fun a => Fin.ext (by match a with | ⟨0, _⟩ => rfl | ⟨1, _⟩ => rfl)
  rw [val_main_call0_v10_apply, e10, val_main_call0_v9_apply, val_main_call0_v8_apply, e8, val_main_call0_v7_apply,
    val_main_call0_cst_1_apply]
  simp only [e7, val_main_call0_v6_apply, ref_shift_apply, Ideal.hostUnary_exp_def, Ideal.hostUnary_log_def,
    Ideal.ofBits_def, Ideal.ofBits_zero_f32, zero_add]
  rfl

/-- The reference's log-softmax stage at (b, d). -/
theorem ref_logSoftmax_apply (f : (⟨S256x512, .f32⟩ : BufTy).Contents (Elt Ideal)) (b : Fin 256) (d : Fin 512) :
    val_main_v18 (F := Ideal) f (ix2 b d) = logSoftmax f b d := by
  rw [val_main_v18_apply, ref_shift_apply, ref_logSum_apply]
  rfl

end Reference

/-! ## The two statements handed on -/

/-- The second body's payload on the features and any scalar: the scalar plus the reference's log-softmax. -/
theorem finalize_eq (f : Vec Ideal Cert.KernelIdeal.S256x512 .f32) (s : EReal) (i : Cert.KernelIdeal.S256x512.Idx) :
    Cert.KernelIdeal.Gen.k1_pay1 (F := Ideal) f (fun _ => s) i = s + Cert.ReferenceIdeal.ReadP.val_main_v18 (F := Ideal) f i := by
  obtain ⟨b, d, rfl⟩ : ∃ (b : Fin 256) (d : Fin 512), i = ix2 b d := ⟨i 0, i 1, eq_ix2 i⟩
  rw [finalize_at, ref_logSoftmax_apply, add_comm]

/-- The reference's result at an index: its scalar plus its log-softmax there. -/
theorem ref_final_apply (f : (⟨Cert.ReferenceIdeal.S256x512, .f32⟩ : BufTy).Contents (Elt Ideal))
    (cen : (⟨Cert.ReferenceIdeal.S100000x512, .f32⟩ : BufTy).Contents (Elt Ideal))
    (lab : (⟨Cert.ReferenceIdeal.S256, .i32⟩ : BufTy).Contents (Elt Ideal)) (i : Cert.ReferenceIdeal.S256x512.Idx) :
    Cert.ReferenceIdeal.ReadP.val_main_v20 (F := Ideal) f cen lab i
      = Cert.ReferenceIdeal.ReadP.val_main_v17 (F := Ideal) f cen lab ValueIdx.ix0
        + Cert.ReferenceIdeal.ReadP.val_main_v18 (F := Ideal) f i := by
  rw [Cert.ReferenceIdeal.ReadP.val_main_v20_apply, Cert.ReferenceIdeal.ReadP.val_main_v19_apply]
  rfl

end Cert.Hand.SoftmaxValue

end
-- ==== Proof.Bridge.lean ====
/- The kernel's result and the reference's result are one function of the three arrays.

   Both are "the sum of the 256 expanded squared distances" added to "the row-wise log-softmax of the features": the
   first call's scalar and the reference's scalar are that same sum, and the second call's payload on the features
   and a scalar `s` is `s` plus the reference's log-softmax. The labels being in range is what makes the two programs
   read the same row of the centres. -/
import proofs.«425759_j86672440033822_2_alg».proof.Proof.TotalValue
import proofs.«425759_j86672440033822_2_alg».proof.Proof.SoftmaxValue

noncomputable section

namespace Cert.Hand.Bridge

open Idealize.ShloMosaic Cert.KernelIdeal.Term

/-- At the exact instance, for labels in range, the kernel's term is the reference's last stage. -/
theorem result_eq_ref (f : Vec Ideal Cert.KernelIdeal.S256x512 .f32) (cen : Vec Ideal Cert.KernelIdeal.S100000x512 .f32)
    (lab : IVec Cert.KernelIdeal.S256 32) (hlab : ∀ b : Fin 256, (lab (ValueIdx.ix1 b)).toNat < 100000) :
    result (F := Ideal) f cen lab hlab = Cert.ReferenceIdeal.ReadP.val_main_v20 (F := Ideal) f cen lab := by
  funext i
  unfold result
  rw [Cert.Hand.TotalValue.total_eq f cen lab hlab, Cert.Hand.SoftmaxValue.finalize_eq f _ i,
    Cert.Hand.SoftmaxValue.ref_final_apply f cen lab i, Cert.Hand.TotalValue.ref_total_eq f cen lab hlab]

end Cert.Hand.Bridge

end
-- ==== Proof.lean ====
/- The certificate: a centre-loss kernel in two pallas_calls against its jnp reference.

   The first call walks the 256 feature rows; at row b it fetches row labels[b] of the 100000×512 centres (the block
   index comes from the prefetched label table) and adds (Σ f² + Σ c²) − 2·Σ f·c to a one-cell accumulator it reset at
   the first row; after the last row the accumulator is the call's result. The second call adds that scalar to the
   row-wise log-softmax of the features. The reference gathers the same rows, forms the same three row sums, adds the
   256 distances and adds the total to jax.nn.log_softmax.

   The label table is an integer input the precondition as generated did not bound: outside [0, 100000) the kernel's
   block index leaves the centres' array, so the statement carries the evident-domain conjunct 0 ≤ labels < 100000,
   and `ok_of_pre` decodes it into the pipeline's side condition of the table. Under it the frames hold (the launch
   over the two calls' records, at both the word-level and the exact instance), and over the extended reals the two
   results are one function: + is commutative and associative there, so the order of the 256 additions does not
   matter, and nothing needs the float inputs finite. The idealization rewrote nothing, so `preserves` is `True`. -/
import proofs.«425759_j86672440033822_2_alg».proof.Defs
import proofs.«425759_j86672440033822_2_alg».proof.Proof.Gen.Kernel
import proofs.«425759_j86672440033822_2_alg».proof.Proof.Gen.KernelIdeal
import proofs.«425759_j86672440033822_2_alg».proof.Proof.Gen.ReferenceIdeal
import proofs.«425759_j86672440033822_2_alg».proof.Proof.Gen.Pre_finite_inputs
import proofs.«425759_j86672440033822_2_alg».proof.Proof.K.KernelFrame
import proofs.«425759_j86672440033822_2_alg».proof.Proof.K.OkOfPre
import proofs.«425759_j86672440033822_2_alg».proof.Proof.KernelValue
import proofs.«425759_j86672440033822_2_alg».proof.Proof.OkOfPre
import proofs.«425759_j86672440033822_2_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The idealized kernel's precondition bounds the label table, so its pipeline side condition holds. -/
theorem ok_of_pre (m : (ℓ : Loc Cert.KernelIdeal.nD Cert.KernelIdeal.τ Cert.KernelIdeal.sig) → Buf (Elt Ideal) ℓ)
    (h : Cert.Pre_KernelIdeal m) : Cert.KernelIdeal.Hand.Ok m :=
  Cert.Hand.OkOfPre.ok0_of_range _ (Cert.Hand.OkOfPre.labels_in_range _ _ _ (h 0))

/-- The same of the word-level program. -/
theorem ok_of_pre_bits (m : (ℓ : Loc Cert.Kernel.nD Cert.Kernel.τ Cert.Kernel.sig) → Buf (Elt Bits) ℓ)
    (h : Cert.Pre_Kernel m) : Cert.Kernel.Hand.Ok m :=
  Cert.HandK.OkOfPre.ok0_of_range _ (Cert.HandK.OkOfPre.labels_in_range _ _ _ (h 0))

theorem frame_k : Cert.frame_Kernel := fun m ρ h => Cert.Kernel.Hand.frame m ρ (ok_of_pre_bits m h)
theorem frame_ki : Cert.frame_KernelIdeal := fun m ρ h => Cert.KernelIdeal.Hand.frame m ρ (ok_of_pre m h)
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end, from memories agreeing on the arguments, at the same 256×512 array: the kernel's run leaves
    its result term, the reference's run its composed term, and the two are one function of the arguments. -/
theorem algebraic : Cert.algebraic_KernelIdeal_ReferenceIdeal := by
  intro m ρ m' ρ' hpre hagree
  have hO := ok_of_pre m hpre
  have hlab := fun c => Cert.Hand.OkOfPre.labels_in_range _ _ _ (hpre c)
  refine ⟨fun c => Cert.KernelIdeal.Hand.o3 m hO c, ?_, ?_⟩
  · exact (θ_run Cert.KernelIdeal.defs _ _).mono (fun _ h c => h c) (Cert.KernelIdeal.Hand.run m ρ hO)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2]
    exact (Cert.ReferenceIdeal.ReadP.val_main_v20_eq (F := Ideal) _ _ _).trans
      ((Cert.Hand.Bridge.result_eq_ref _ _ _ (hlab c)).symm.trans (Cert.KernelIdeal.Hand.o3_eq m hO c (hlab c)).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
